-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S256x10 .f32) (main_arg10 : FVec F S10 .f32) (main_v33 : IVec S_ 1) : IVec S_ 1 :=
  let main_v34 : FVec F S256x10 .f32 := Host.absf main_arg9
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S256x256 .f32) (main_arg7 : FVec F S256 .f32) (main_arg8 : FVec F S256x256 .f32) (main_arg9 : FVec F S256x10 .f32) (main_arg10 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_v33

def fn {F : FTy → Type} [FloatOps F] (main_arg0 : FVec F S40000x128 .f32) (main_arg1 : IVec S2x640000 32) (main_arg2 : IVec S40000 32) (main_arg3 : FVec F S128x256 .f32) (main_arg4 : FVec F S256 .f32) (main_arg5 : FVec F S128x256 .f32) (main_arg6 : FVec F S256x256 .f32) (main_arg7 : FVec F S256 .f32) (main_arg8 : FVec F S256x256 .f32) (main_arg9 : FVec F S256x10 .f32) (main_arg10 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x1 : Shape := ⟨2, ![40000, 1]⟩
abbrev S64 : Shape := ⟨1, ![64]⟩
abbrev S64x1 : Shape := ⟨2, ![64, 1]⟩
abbrev S640000x128 : Shape := ⟨2, ![640000, 128]⟩
abbrev S1x256 : Shape := ⟨2, ![1, 256]⟩
abbrev S40000x256 : Shape := ⟨2, ![40000, 256]⟩
abbrev S4000x128 : Shape := ⟨2, ![4000, 128]⟩
abbrev S4000x1 : Shape := ⟨2, ![4000, 1]⟩
abbrev S4000x256 : Shape := ⟨2, ![4000, 256]⟩
abbrev S4000 : Shape := ⟨1, ![4000]⟩
abbrev S640000x256 : Shape := ⟨2, ![640000, 256]⟩
abbrev S20x64x256 : Shape := ⟨3, ![20, 64, 256]⟩
abbrev S2000x256 : Shape := ⟨2, ![2000, 256]⟩
abbrev S2000x1 : Shape := ⟨2, ![2000, 1]⟩
abbrev S1x64x256 : Shape := ⟨3, ![1, 64, 256]⟩
abbrev S2000 : Shape := ⟨1, ![2000]⟩
abbrev S2000x64 : Shape := ⟨2, ![2000, 64]⟩
abbrev S64x256 : Shape := ⟨2, ![64, 256]⟩
abbrev S64x10 : Shape := ⟨2, ![64, 10]⟩
abbrev S1x10 : Shape := ⟨2, ![1, 10]⟩

abbrev nBuf : Space → Nat
  | .hbm => 87
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x10, .f32⟩
  | .hbm, ⟨10, _⟩ => ⟨S10, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S40000, .f32⟩
  | .hbm, ⟨19, _⟩ => ⟨S640000x1, .i32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S40000x1, .f32⟩
  | .hbm, ⟨28, _⟩ => ⟨S_, .f32⟩
  | .hbm, ⟨29, _⟩ => ⟨S40000, .f32⟩
  | .hbm, ⟨30, _⟩ => ⟨S_, .f32⟩
  | .hbm, ⟨31, _⟩ => ⟨S64, .f32⟩
  | .hbm, ⟨32, _⟩ => ⟨S40000x1, .i32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S40000x128, .bf16⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .bf16⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S128x256, .bf16⟩
  | .hbm, ⟨57, _⟩ => ⟨S128x256, .bf16⟩
  | .hbm, ⟨58, _⟩ => ⟨S1x256, .f32⟩
  | .hbm, ⟨59, _⟩ => ⟨S40000x256, .bf16⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x256, .bf16⟩
  | .hbm, ⟨69, _⟩ => ⟨S640000x256, .f32⟩
  | .hbm, ⟨70, _⟩ => ⟨S_, .f32⟩
  | .hbm, ⟨71, _⟩ => ⟨S40000x256, .f32⟩
  | .hbm, ⟨72, _⟩ => ⟨S640000x1, .i32⟩
  | .hbm, ⟨73, _⟩ => ⟨S40000x256, .f32⟩
  | .hbm, ⟨74, _⟩ => ⟨S256x256, .bf16⟩
  | .hbm, ⟨75, _⟩ => ⟨S256x256, .bf16⟩
  | .hbm, ⟨76, _⟩ => ⟨S1x256, .f32⟩
  | .hbm, ⟨77, _⟩ => ⟨S40000x1, .i32⟩
  | .hbm, ⟨78, _⟩ => ⟨S20x64x256, .f32⟩
  | .hbm, ⟨79, _⟩ => ⟨S_, .f32⟩
  | .hbm, ⟨80, _⟩ => ⟨S64x256, .f32⟩
  | .hbm, ⟨81, _⟩ => ⟨S64x256, .f32⟩
  | .hbm, ⟨82, _⟩ => ⟨S64x256, .f32⟩
  | .hbm, ⟨83, _⟩ => ⟨S64x10, .f32⟩
  | .hbm, ⟨84, _⟩ => ⟨S1x10, .f32⟩
  | .hbm, ⟨85, _⟩ => ⟨S64x10, .f32⟩
  | .hbm, ⟨86, _⟩ => ⟨S64x10, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x256, .bf16⟩
  | .local _ .vmem, ⟨7, _⟩ => ⟨S1x256, .f32⟩
  | .local _ .vmem, ⟨8, _⟩ => ⟨S128x256, .bf16⟩
  | .local _ .vmem, ⟨9, _⟩ => ⟨S4000x256, .bf16⟩
  | .local _ .vmem, ⟨10, _⟩ => ⟨S4000x256, .bf16⟩
  | .local _ .vmem, ⟨11, _⟩ => ⟨S2000x256, .f32⟩
  | .local _ .vmem, ⟨12, _⟩ => ⟨S2000x256, .f32⟩
  | .local _ .vmem, ⟨13, _⟩ => ⟨S2000x256, .bf16⟩
  | .local _ .vmem, ⟨14, _⟩ => ⟨S2000x256, .bf16⟩
  | .local _ .vmem, ⟨15, _⟩ => ⟨S2000x1, .f32⟩
  | .local _ .vmem, ⟨16, _⟩ => ⟨S2000x1, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S2000x1, .i32⟩
  | .local _ .vmem, ⟨21, _⟩ => ⟨S2000x1, .i32⟩
  | .local _ .vmem, ⟨22, _⟩ => ⟨S1x64x256, .f32⟩
  | .local _ .vmem, ⟨23, _⟩ => ⟨S1x64x256, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S_S64 : S_.BroadcastsInDim S64 (![] : Fin 0 → Fin S64.rank)
  bcast_S40000_S40000x1_0 : S40000.BroadcastsInDim S40000x1 (![0] : Fin 1 → Fin S40000x1.rank)
  shapeCasts_S64_S64x1 : S64.ShapeCasts S64x1
  bitsLt_bf16_f32 : FTy.bits .bf16 < FTy.bits .f32
  bcast_S_S40000x128 : S_.BroadcastsInDim S40000x128 (![] : Fin 0 → Fin S40000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  bcast_S_S40000x256 : S_.BroadcastsInDim S40000x256 (![] : Fin 0 → Fin S40000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2000x256 : S1x256.Broadcasts S2000x256
  reduces_S2000x256_S2000 : S2000x256.Reduces [1] S2000
  shapeCasts_S2000_S2000x1 : S2000.ShapeCasts S2000x1
  iota_S2000x64_d1_w32 : S2000x64.Iotas .tc 32 [1]
  broadcasts_S2000x1_S2000x64 : S2000x1.Broadcasts S2000x64
  natLt_1_32 : 1 < 32
  shapeCasts_S64x256_S1x64x256 : S64x256.ShapeCasts S1x64x256
  inb_S1x64x256_S1x64x256_0_0_0 : ∀ a, (![0, 0, 0] : Fin 3 → Nat) a + S1x64x256.size a ≤ S1x64x256.size a
  h_S1x64x256 : 0 < S1x64x256.numel
  reducesTo_S20x64x256_S64x256_d0 : S20x64x256.ReducesTo [0] S64x256
  h_S_ : 0 < S_.numel
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S40000_S640000x1_S640000_n_0_0_1_wf : ScatterDims.WF S40000 S640000x1 S640000 [] [0] [0] 1
  scatter_S64_S40000x1_S40000_n_0_0_1_wf : ScatterDims.WF S64 S40000x1 S40000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x256_S4000x256_1_0_0_1_n_n_wf : DotDims.WF S4000x128 S128x256 S4000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S2000x256_S256x256_S2000x256_1_0_0_1_n_n_wf : DotDims.WF S2000x256 S256x256 S2000x256 [1] [0] [0] [1] [] []
  dot_S2000x64_S2000x256_S64x256_0_0_1_1_n_n_wf : DotDims.WF S2000x64 S2000x256 S64x256 [0] [0] [1] [1] [] []
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .bf16 = 32 ∨ (Rect.block (s := S40000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S40000x256.size a
  hwx0_6 : ∀ i : grid0.Coords, EltTy.bits .bf16 = 32 ∨ (Rect.block (s := S40000x256) S4000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S40000x256.size a
  hwx1_0 : ∀ i : grid1.Coords, EltTy.bits .f32 = 32 ∨ (Rect.block (s := S40000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S40000x256.size a
  hwx1_1 : ∀ i : grid1.Coords, EltTy.bits .bf16 = 32 ∨ (Rect.block (s := S40000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S40000x1.size a
  hwx1_2 : ∀ i : grid1.Coords, EltTy.bits .f32 = 32 ∨ (Rect.block (s := S40000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S40000x1.size a
  hwx1_6 : ∀ i : grid1.Coords, EltTy.bits .i32 = 32 ∨ (Rect.block (s := S40000x1) S2000x1.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x256.size a ≤ S20x64x256.size a
  hwx1_7 : ∀ i : grid1.Coords, EltTy.bits .f32 = 32 ∨ (Rect.block (s := S20x64x256) S1x64x256.size (cc1_transform_7 i) (hinb1_7 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x64_S2000x256_S64x256_0_0_1_1_n_n : DotDims S2000x64 S2000x256 S64x256 where
  lhsContracting := [0]
  rhsContracting := [0]
  lhsNonContracting := [1]
  rhsNonContracting := [1]
  lhsBatch := []
  rhsBatch := []
  wf := dot_S2000x64_S2000x256_S64x256_0_0_1_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v33) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S2000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1x64x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S40000x256 : Shape := ⟨2, ![40000, 256]⟩
abbrev S1x256 : Shape := ⟨2, ![1, 256]⟩
abbrev S640000x256 : Shape := ⟨2, ![640000, 256]⟩
abbrev S64x256 : Shape := ⟨2, ![64, 256]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 123
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x10, .f32⟩
  | .hbm, ⟨10, _⟩ => ⟨S10, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S40000, .f32⟩
  | .hbm, ⟨32, _⟩ => ⟨S640000x1, .i32⟩
  | .hbm, ⟨33, _⟩ => ⟨S40000, .f32⟩
  | .hbm, ⟨34, _⟩ => ⟨S_, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S40000x256, .f32⟩
  | .hbm, ⟨41, _⟩ => ⟨S1x256, .f32⟩
  | .hbm, ⟨42, _⟩ => ⟨S40000x256, .f32⟩
  | .hbm, ⟨43, _⟩ => ⟨S40000x256, .f32⟩
  | .hbm, ⟨44, _⟩ => ⟨S40000x256, .f32⟩
  | .hbm, ⟨45, _⟩ => ⟨S40000x256, .f32⟩
  | .hbm, ⟨46, _⟩ => ⟨S40000x256, .f32⟩
  | .hbm, ⟨47, _⟩ => ⟨S_, .f32⟩
  | .hbm, ⟨48, _⟩ => ⟨S40000, .f32⟩
  | .hbm, ⟨49, _⟩ => ⟨S40000x1, .f32⟩
  | .hbm, ⟨50, _⟩ => ⟨S40000x1, .f32⟩
  | .hbm, ⟨51, _⟩ => ⟨S_, .f32⟩
  | .hbm, ⟨52, _⟩ => ⟨S40000x1, .f32⟩
  | .hbm, ⟨53, _⟩ => ⟨S40000x1, .f32⟩
  | .hbm, ⟨54, _⟩ => ⟨S40000x256, .f32⟩
  | .hbm, ⟨55, _⟩ => ⟨S40000x256, .f32⟩
  | .hbm, ⟨56, _⟩ => ⟨S_, .f32⟩
  | .hbm, ⟨57, _⟩ => ⟨S40000x256, .f32⟩
  | .hbm, ⟨58, _⟩ => ⟨S40000x256, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x256, .f32⟩
  | .hbm, ⟨68, _⟩ => ⟨S_, .f32⟩
  | .hbm, ⟨69, _⟩ => ⟨S40000x256, .f32⟩
  | .hbm, ⟨70, _⟩ => ⟨S640000x1, .i32⟩
  | .hbm, ⟨71, _⟩ => ⟨S40000x256, .f32⟩
  | .hbm, ⟨72, _⟩ => ⟨S_, .f32⟩
  | .hbm, ⟨73, _⟩ => ⟨S640000, .f32⟩
  | .hbm, ⟨74, _⟩ => ⟨S_, .f32⟩
  | .hbm, ⟨75, _⟩ => ⟨S40000, .f32⟩
  | .hbm, ⟨76, _⟩ => ⟨S640000x1, .i32⟩
  | .hbm, ⟨77, _⟩ => ⟨S40000, .f32⟩
  | .hbm, ⟨78, _⟩ => ⟨S_, .f32⟩
  | .hbm, ⟨79, _⟩ => ⟨S40000, .f32⟩
  | .hbm, ⟨80, _⟩ => ⟨S40000, .f32⟩
  | .hbm, ⟨81, _⟩ => ⟨S40000x1, .f32⟩
  | .hbm, ⟨82, _⟩ => ⟨S40000x256, .f32⟩
  | .hbm, ⟨83, _⟩ => ⟨S40000x256, .f32⟩
  | .hbm, ⟨84, _⟩ => ⟨S40000x256, .f32⟩
  | .hbm, ⟨85, _⟩ => ⟨S1x256, .f32⟩
  | .hbm, ⟨86, _⟩ => ⟨S40000x256, .f32⟩
  | .hbm, ⟨87, _⟩ => ⟨S40000x256, .f32⟩
  | .hbm, ⟨88, _⟩ => ⟨S40000x256, .f32⟩
  | .hbm, ⟨89, _⟩ => ⟨S40000x256, .f32⟩
  | .hbm, ⟨90, _⟩ => ⟨S40000x256, .f32⟩
  | .hbm, ⟨91, _⟩ => ⟨S_, .f32⟩
  | .hbm, ⟨92, _⟩ => ⟨S40000, .f32⟩
  | .hbm, ⟨93, _⟩ => ⟨S40000x1, .f32⟩
  | .hbm, ⟨94, _⟩ => ⟨S40000x1, .f32⟩
  | .hbm, ⟨95, _⟩ => ⟨S_, .f32⟩
  | .hbm, ⟨96, _⟩ => ⟨S40000x1, .f32⟩
  | .hbm, ⟨97, _⟩ => ⟨S40000x1, .f32⟩
  | .hbm, ⟨98, _⟩ => ⟨S40000x256, .f32⟩
  | .hbm, ⟨99, _⟩ => ⟨S40000x256, .f32⟩
  | .hbm, ⟨100, _⟩ => ⟨S_, .f32⟩
  | .hbm, ⟨101, _⟩ => ⟨S40000x256, .f32⟩
  | .hbm, ⟨102, _⟩ => ⟨S40000x256, .f32⟩
  | .hbm, ⟨103, _⟩ => ⟨S_, .f32⟩
  | .hbm, ⟨104, _⟩ => ⟨S64x256, .f32⟩
  | .hbm, ⟨105, _⟩ => ⟨S40000x1, .i32⟩
  | .hbm, ⟨106, _⟩ => ⟨S64x256, .f32⟩
  | .hbm, ⟨107, _⟩ => ⟨S_, .f32⟩
  | .hbm, ⟨108, _⟩ => ⟨S40000, .f32⟩
  | .hbm, ⟨109, _⟩ => ⟨S_, .f32⟩
  | .hbm, ⟨110, _⟩ => ⟨S64, .f32⟩
  | .hbm, ⟨111, _⟩ => ⟨S40000x1, .i32⟩
  | .hbm, ⟨112, _⟩ => ⟨S64, .f32⟩
  | .hbm, ⟨113, _⟩ => ⟨S_, .f32⟩
  | .hbm, ⟨114, _⟩ => ⟨S64, .f32⟩
  | .hbm, ⟨115, _⟩ => ⟨S64, .f32⟩
  | .hbm, ⟨116, _⟩ => ⟨S64x1, .f32⟩
  | .hbm, ⟨117, _⟩ => ⟨S64x256, .f32⟩
  | .hbm, ⟨118, _⟩ => ⟨S64x256, .f32⟩
  | .hbm, ⟨119, _⟩ => ⟨S64x10, .f32⟩
  | .hbm, ⟨120, _⟩ => ⟨S1x10, .f32⟩
  | .hbm, ⟨121, _⟩ => ⟨S64x10, .f32⟩
  | .hbm, ⟨122, _⟩ => ⟨S64x10, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_v0 : Ref sig .tc := ⟨.hbm, 90, rfl⟩
abbrev main_call2_cst : Ref sig .tc := ⟨.hbm, 91, rfl⟩
abbrev main_call2_v1 : Ref sig .tc := ⟨.hbm, 92, rfl⟩
abbrev main_call2_v2 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call3_cst : Ref sig .tc := ⟨.hbm, 100, rfl⟩
abbrev main_call3_v0 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_13 : Ref sig .tc := ⟨.hbm, 107, rfl⟩
abbrev main_v69 : Ref sig .tc := ⟨.hbm, 108, rfl⟩
abbrev main_cst_14 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_15 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  reducesTo_S40000x256_S40000_d1 : S40000x256.ReducesTo [1] S40000
  h_S_ : 0 < S_.numel
  bcast_S_S40000x1 : S_.BroadcastsInDim S40000x1 (![] : Fin 0 → Fin S40000x1.rank)
  bcast_S40000x1_S40000x256_0_1 : S40000x1.BroadcastsInDim S40000x256 (![0, 1] : Fin 2 → Fin S40000x256.rank)
  bcast_S_S40000x256 : S_.BroadcastsInDim S40000x256 (![] : Fin 0 → Fin S40000x256.rank)
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x256_S40000x256_1_0_0_1_n_n_wf : DotDims.WF S40000x128 S128x256 S40000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S40000x256_S256x256_S40000x256_1_0_0_1_n_n_wf : DotDims.WF S40000x256 S256x256 S40000x256 [1] [0] [0] [1] [] []
  scatter_S64x256_S40000x1_S40000x256_1_0_0_1_wf : ScatterDims.WF S64x256 S40000x1 S40000x256 [1] [0] [0] 1
  scatter_S64_S40000x1_S40000_n_0_0_1_wf : ScatterDims.WF S64 S40000x1 S40000 [] [0] [0] 1
  dot_S64x256_S256x10_S64x10_1_0_0_1_n_n_wf : DotDims.WF S64x256 S256x10 S64x10 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def scatter_S64x256_S40000x1_S40000x256_1_0_0_1 : ScatterDims S64x256 S40000x1 S40000x256 where
  updateWindowDims := [1]
  insertedWindowDims := [0]
  scatterDimsToOperandDims := [0]
  indexVectorDim := 1
  wf := scatter_S64x256_S40000x1_S40000x256_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.Spec.lean ====
/-
  The mathematics shared by the two programs, read over the extended reals (every float an exact
  element of [-∞, +∞], every operation the textbook one).

  A graph layer maps a node's neighbour mean `μ` and its own features `x` to
      o_j = (Σ_k μ_k · Wl_{k j} + b_j) + Σ_k x_k · Wr_{k j},
  then divides the row `o` by max(√(Σ_j o_j²), floor) and clips it below at 0.  One program forms the
  mean as  a · s  with  s = 1 / c  computed beforehand, the other as  a / c ;  c = max(count, 1) is
  never 0, and for a divisor other than 0 the quotient is the product with the inverse, so the two
  means agree entry by entry, whatever `a` is (no finiteness is used).

  The readout adds the rows of one graph.  One program adds, tile of 2000 rows by tile, the rows
  weighted by the indicator "this row's graph id is g" and then adds the twenty tiles; the other adds
  the rows whose id is g directly.  The indicator is 1 or 0, and 1 · h = h, 0 · h = 0 for every extended
  real h, so both are the same finite sum over the 40000 rows, split as 20 × 2000.
-/
import Idealize.ShloMosaic.PureOps.Ideal
import Idealize.ShloMosaic.PureOps.Ideal.Laws
import Idealize.ShloMosaic.Lib.ValueIdx
import Mathlib.Algebra.BigOperators.Fin
import Mathlib.Data.EReal.Inv

noncomputable section

namespace Sage

open Idealize.ShloMosaic Idealize.ShloMosaic.ValueIdx
open scoped BigOperators

/-- The floor of the row norm: the binary32 number nearest 10⁻¹², the same word in both programs. -/
abbrev normFloor : EReal := Ideal.ofBits .f32 0x2B8CBCCC#32

/-- The dense stage of one node, output feature `j`: (μ · Wl + b) + x · Wr. -/
def dense {K J : Type} [Fintype K] (μ x : K → EReal) (wl wr : K → J → EReal) (b : J → EReal) (j : J) : EReal :=
  (∑ k, μ k * wl k j + b j) + ∑ k, x k * wr k j

/-- A row divided by max(its Euclidean norm, the floor), then clipped below at 0. -/
def normRelu {J : Type} [Fintype J] (o : J → EReal) (j : J) : EReal :=
  max (Ideal.div (o j) (max (Ideal.sqrt (∑ j', o j' * o j')) normFloor)) 0

/-- The layer as a function of whole arrays, the mean given as  a · s  (s one column). -/
def layerMul {N K J : Nat} (a x : (⟨2, ![N, K]⟩ : Shape).Idx → EReal) (s : (⟨2, ![N, 1]⟩ : Shape).Idx → EReal)
    (wl wr : (⟨2, ![K, J]⟩ : Shape).Idx → EReal) (b : (⟨2, ![1, J]⟩ : Shape).Idx → EReal) :
    (⟨2, ![N, J]⟩ : Shape).Idx → EReal := fun i =>
  let n : Fin N := i 0
  let j : Fin J := i 1
  normRelu (dense (fun k : Fin K => a (ix2 n k) * s (ix2 n 0)) (fun k : Fin K => x (ix2 n k))
    (fun (k : Fin K) (j : Fin J) => wl (ix2 k j)) (fun (k : Fin K) (j : Fin J) => wr (ix2 k j)) (fun j : Fin J => b (ix2 0 j))) j

/-- The layer as a function of whole arrays, the mean given as  a / c  (c one entry per node, the bias one entry per
    feature). -/
def layerDiv {N K J : Nat} (a x : (⟨2, ![N, K]⟩ : Shape).Idx → EReal) (c : (⟨1, ![N]⟩ : Shape).Idx → EReal)
    (wl wr : (⟨2, ![K, J]⟩ : Shape).Idx → EReal) (b : (⟨1, ![J]⟩ : Shape).Idx → EReal) :
    (⟨2, ![N, J]⟩ : Shape).Idx → EReal := fun i =>
  let n : Fin N := i 0
  let j : Fin J := i 1
  normRelu (dense (fun k : Fin K => Ideal.div (a (ix2 n k)) (c (ix1 n))) (fun k : Fin K => x (ix2 n k))
    (fun (k : Fin K) (j : Fin J) => wl (ix2 k j)) (fun (k : Fin K) (j : Fin J) => wr (ix2 k j)) (fun j : Fin J => b (ix1 j))) j

/-- For a divisor other than 0, the product with the reciprocal is the quotient, on every extended real. -/
theorem mul_recip_eq_div (a c : EReal) (hc : c ≠ 0) : a * Ideal.div 1 c = Ideal.div a c := by
  unfold Ideal.div
  rw [if_neg hc, if_neg hc, one_mul]

/-- A maximum with 1 is not 0. -/
theorem max_one_ne_zero (x : EReal) : max x 1 ≠ 0 := by
  have h : (0 : EReal) < max x 1 := lt_of_lt_of_le zero_lt_one (le_max_right x 1)
  exact ne_of_gt h

/-- The two forms of the layer agree when  s = 1 / c  with  c = max(count, 1)  and the bias rows hold the same numbers. -/
theorem layerMul_eq_layerDiv {N K J : Nat} (a x : (⟨2, ![N, K]⟩ : Shape).Idx → EReal) (s : (⟨2, ![N, 1]⟩ : Shape).Idx → EReal)
    (cnt : (⟨1, ![N]⟩ : Shape).Idx → EReal) (wl wr : (⟨2, ![K, J]⟩ : Shape).Idx → EReal)
    (b2 : (⟨2, ![1, J]⟩ : Shape).Idx → EReal) (b1 : (⟨1, ![J]⟩ : Shape).Idx → EReal)
    (hs : ∀ n : Fin N, s (ix2 n 0) = Ideal.div 1 (max (cnt (ix1 n)) 1)) (hb : ∀ j : Fin J, b2 (ix2 0 j) = b1 (ix1 j)) :
    layerMul a x s wl wr b2 = layerDiv a x (fun i => max (cnt i) 1) wl wr b1 := by
  funext i
  have e : s (ix2 (i 0) 0) = Ideal.div 1 (max (cnt (ix1 (i 0))) 1) := hs (i 0)
  unfold layerMul layerDiv
  dsimp only
  congr 1
  funext j
  unfold dense
  simp only [e, hb, mul_recip_eq_div _ _ (max_one_ne_zero _)]

/-- The indicator of "the 32-bit word `w` is the graph number `g`", as an extended real. -/
def onehot (w : BitVec 32) (g : Fin 64) : EReal := if w = BitVec.ofNat 32 g.val then 1 else 0

/-- Row `r` of tile `t` is row 2000·t + r of the node axis. -/
def tileRow (t : Fin 20) (r : Fin 2000) : Fin 40000 := ⟨2000 * t.val + r.val, by have := t.isLt; have := r.isLt; omega⟩

/-- One tile's share of the per-graph sums: over the tile's 2000 rows, the indicator times the row's feature. -/
def poolPartial (bt : (⟨2, ![40000, 1]⟩ : Shape).Idx → BitVec 32) (h : (⟨2, ![40000, 256]⟩ : Shape).Idx → EReal) :
    (⟨3, ![20, 64, 256]⟩ : Shape).Idx → EReal := fun i =>
  let t : Fin 20 := i 0
  let g : Fin 64 := i 1
  let d : Fin 256 := i 2
  ∑ r : Fin 2000, onehot (bt (ix2 (tileRow t r) 0)) g * h (ix2 (tileRow t r) d)

/-- The per-graph sum over all 40000 rows: the rows whose id is `g`. -/
def poolAll (bt : Fin 40000 → BitVec 32) (h : (⟨2, ![40000, 256]⟩ : Shape).Idx → EReal) (g : Fin 64) (d : Fin 256) : EReal :=
  ∑ n : Fin 40000, onehot (bt n) g * h (ix2 n d)

/-- Twenty tiles of 2000 rows are the 40000 rows: the tiles' shares add up to the sum over all rows. -/
theorem sum_tiles (f : Fin 40000 → EReal) : ∑ t : Fin 20, ∑ r : Fin 2000, f (tileRow t r) = ∑ n : Fin 40000, f n := by
  rw [← Fintype.sum_prod_type' (f := fun (t : Fin 20) (r : Fin 2000) => f (tileRow t r))]
  refine Fintype.sum_equiv (finProdFinEquiv (m := 20) (n := 2000)) _ (fun n : Fin (20 * 2000) => f ⟨n.val, n.isLt⟩) (fun p => ?_) |>.trans ?_
  · congr 1
    apply Fin.ext
    show 2000 * p.1.val + p.2.val = p.2.val + 2000 * p.1.val
    omega
  · rfl

theorem sum_poolPartial (bt : (⟨2, ![40000, 1]⟩ : Shape).Idx → BitVec 32) (h : (⟨2, ![40000, 256]⟩ : Shape).Idx → EReal)
    (g : Fin 64) (d : Fin 256) :
    ∑ t : Fin 20, poolPartial bt h (ix3 t g d) = poolAll (fun n => bt (ix2 n 0)) h g d := by
  unfold poolPartial poolAll
  exact sum_tiles (fun n => onehot (bt (ix2 n 0)) g * h (ix2 n d))

/-- A sum weighted by the indicator is the sum over the rows where it is 1. -/
theorem poolAll_eq_filter (bt : Fin 40000 → BitVec 32) (h : (⟨2, ![40000, 256]⟩ : Shape).Idx → EReal) (g : Fin 64) (d : Fin 256) :
    poolAll bt h g d = ∑ n ∈ Finset.univ.filter (fun n : Fin 40000 => bt n = BitVec.ofNat 32 g.val), h (ix2 n d) := by
  unfold poolAll onehot
  rw [Finset.sum_filter]
  refine Finset.sum_congr rfl fun n _ => ?_
  split_ifs <;> simp

end Sage

end
-- ==== Proof.Region0.lean ====
/-
  The first layer's array after its launch.  The launch cuts the 40000 nodes into ten tiles of 4000 rows; at tile t the
  body reads rows 4000·t … 4000·t + 3999 of the neighbour sums, of the features and of the reciprocal counts, and the
  whole weight matrices and bias row, and writes the same rows of the result.  Row by row the body is the layer map of
  the specification (the mean formed as a product with the reciprocal), so the tiles together are that map of the whole
  arrays.
-/
import proofs.«414614_j75479755259985_3_alg».proof.Proof.Gen.KernelIdeal.Frame
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## Columns and rows read at an index -/

section Layout
variable {α : Type}

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (p, 0), the vector's entry p. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Layout

/-! ## The product with a weight matrix -/

/-- The operands' coordinates at output entry i and shared coordinate q: the left operand is read at (row of i, q),
    the right operand at (q, column of i). -/
theorem lhs_axis0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_axis1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_axis0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_axis1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A block of 4000 rows times a 128 x 256 matrix, added into zero: entry (r, j) is the sum over the 128 shared
    coordinates of row r's entry times column j's. -/
theorem rows_times_matrix (x : FVec Ideal S4000x128 .bf16) (w : FVec Ideal S128x256 .bf16) (r : Fin 4000) (j : Fin 256) :
    matmul dot_S4000x128_S128x256_S4000x256_1_0_0_1_n_n none x w (constant (F := Ideal) S4000x256 .f32 0x00000000#32) (ix2 r j)
      = ∑ k : Fin 128, x (ix2 r k) * w (ix2 k j) := by
  simp only [matmul]
  rw [Ideal.matmul_constant_zero_apply, ← Equiv.sum_comp (ValueIdx.contrEquiv1 dot_S4000x128_S128x256_S4000x256_1_0_0_1_n_n 128 rfl rfl).symm]
  refine Finset.sum_congr rfl fun k _ => ?_
  have hk := ValueIdx.contrEquiv1_symm_val dot_S4000x128_S128x256_S4000x256_1_0_0_1_n_n 128 rfl rfl k
  have el : dot_S4000x128_S128x256_S4000x256_1_0_0_1_n_n.lhsIdx (ix2 r j) ((ValueIdx.contrEquiv1 dot_S4000x128_S128x256_S4000x256_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S4000x128_S128x256_S4000x256_1_0_0_1_n_n.rhsIdx (ix2 r j) ((ValueIdx.contrEquiv1 dot_S4000x128_S128x256_S4000x256_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## The body's arithmetic, row by row -/

/-- The square root of a block is taken entry by entry. -/
theorem sqrt_apply {s : Shape} {φ : FTy} (a : FVec Ideal s φ) (i : s.Idx) : sqrt a i = Ideal.sqrt (a i) := rfl

/-- A block's sum along its rows: entry r is the sum of row r's 256 entries. -/
theorem rowSum (x : FVec Ideal S4000x256 .f32) (h : S4000x256.Reduces [1] S4000) (hφ : FKind.Formats .f32)
    (hacc : (0x00000000#32 : BitVec FTy.f32.bits) = FKind.add.neutral .f32 hφ) (r : Fin 4000) :
    multiReduction (F := Ideal) .add [1] S4000 x 0x00000000#32 h hφ hacc (ix1 r) = ∑ j : Fin 256, x (ix2 r j) := by
  refine (Ideal.multiReduction_add_single x 0x00000000#32 h hφ hacc (ix1 r)).trans ?_
  refine Finset.sum_congr rfl fun k _ => congrArg x (funext fun a => Fin.ext ?_)
  match a with
  | ⟨0, _⟩ => rfl
  | ⟨1, _⟩ => rfl

/-- The mean of the neighbours, formed as the neighbour sums times the row's reciprocal count. -/
def meanBlock (v0 : FVec Ideal S4000x128 .f32) (v2 : FVec Ideal S4000x1 .f32) : FVec Ideal S4000x128 .bf16 :=
  truncf .bf16 (mulf (shapeCast S4000x128 v0 shapeCasts_S4000x128_S4000x128)
    (broadcastTo S4000x128 (shapeCast S4000x1 v2 shapeCasts_S4000x1_S4000x1) broadcasts_S4000x1_S4000x128)) bitsLt_bf16_f32

/-- The dense stage of a block of rows: (mean · Wl + bias) + features · Wr. -/
def denseBlock (v0 : FVec Ideal S4000x128 .f32) (v2 : FVec Ideal S4000x1 .f32) (v7 : FVec Ideal S4000x128 .bf16)
    (v9 v11 : FVec Ideal S128x256 .bf16) (v13 : FVec Ideal S1x256 .f32) : FVec Ideal S4000x256 .f32 :=
  addf (addf (matmul dot_S4000x128_S128x256_S4000x256_1_0_0_1_n_n none (meanBlock v0 v2)
        (shapeCast S128x256 v9 shapeCasts_S128x256_S128x256) (constant (F := Ideal) S4000x256 .f32 0x00000000#32))
      (broadcastTo S4000x256 (shapeCast S1x256 v13 shapeCasts_S1x256_S1x256) broadcasts_S1x256_S4000x256))
    (matmul dot_S4000x128_S128x256_S4000x256_1_0_0_1_n_n none (shapeCast S4000x128 v7 shapeCasts_S4000x128_S4000x128)
      (shapeCast S128x256 v11 shapeCasts_S128x256_S128x256) (constant (F := Ideal) S4000x256 .f32 0x00000000#32))

/-- Each row divided by max(its Euclidean norm, the floor), then clipped below at 0. -/
def normBlock (o : FVec Ideal S4000x256 .f32) : FVec Ideal S4000x256 .bf16 :=
  truncf .bf16 (maximumf (divf o (broadcastTo S4000x256
      (maximumf (sqrt (shapeCast S4000x1 (multiReduction (F := Ideal) .add [1] S4000 (mulf o o) 0x00000000#32 reduces_S4000x256_S4000 (.inl rfl) rfl) shapeCasts_S4000_S4000x1))
        (broadcast S4000x1 (Scalar.ofBits (F := Ideal) .f32 0x2B8CBCCC#32))) broadcasts_S4000x1_S4000x256))
    (broadcast S4000x256 (Scalar.ofBits (F := Ideal) .f32 0x00000000#32))) bitsLt_bf16_f32

/-- The body's result is the normalised dense stage of its blocks. -/
theorem pay_eq (v0 : FVec Ideal S4000x128 .f32) (v2 : FVec Ideal S4000x1 .f32) (v7 : FVec Ideal S4000x128 .bf16)
    (v9 v11 : FVec Ideal S128x256 .bf16) (v13 : FVec Ideal S1x256 .f32) :
    k0_pay1 (F := Ideal) v0 v2 v7 v9 v11 v13 = normBlock (denseBlock v0 v2 v7 v9 v11 v13) := rfl

/-- Entry (r, j) of the dense stage of a block is the specification's dense stage of row r. -/
theorem denseBlock_apply (v0 : FVec Ideal S4000x128 .f32) (v2 : FVec Ideal S4000x1 .f32) (v7 : FVec Ideal S4000x128 .bf16)
    (v9 v11 : FVec Ideal S128x256 .bf16) (v13 : FVec Ideal S1x256 .f32) (r : Fin 4000) (j : Fin 256) :
    denseBlock v0 v2 v7 v9 v11 v13 (ix2 r j)
      = Sage.dense (fun k : Fin 128 => v0 (ix2 r k) * v2 (ix2 r 0)) (fun k : Fin 128 => v7 (ix2 r k))
          (fun (k : Fin 128) (j : Fin 256) => v9 (ix2 k j)) (fun (k : Fin 128) (j : Fin 256) => v11 (ix2 k j))
          (fun j : Fin 256 => v13 (ix2 0 j)) j := by
  unfold denseBlock meanBlock Sage.dense
  rw [addf_apply, addf_apply, rows_times_matrix, rows_times_matrix, broadcastTo_1b_ab_apply]
  simp only [shapeCast_self, truncf_apply, mulf_apply, broadcastTo_a1_ab_apply]

/-- Entry (r, j) of a normalised block is the specification's normalisation of row r. -/
theorem normBlock_apply (o : FVec Ideal S4000x256 .f32) (r : Fin 4000) (j : Fin 256) :
    normBlock o (ix2 r j) = Sage.normRelu (fun j' : Fin 256 => o (ix2 r j')) j := by
  have hs : multiReduction (F := Ideal) .add [1] S4000 (mulf o o) 0x00000000#32 reduces_S4000x256_S4000 (.inl rfl) rfl (ix1 r)
      = ∑ j' : Fin 256, o (ix2 r j') * o (ix2 r j') := rowSum _ _ _ _ r
  have hc : shapeCast S4000x1 (multiReduction (F := Ideal) .add [1] S4000 (mulf o o) 0x00000000#32 reduces_S4000x256_S4000 (.inl rfl) rfl) shapeCasts_S4000_S4000x1 (ix2 r 0)
      = ∑ j' : Fin 256, o (ix2 r j') * o (ix2 r j') := (shapeCast_a_a1_apply _ _ r 0).trans hs
  unfold normBlock Sage.normRelu
  rw [truncf_apply, maximumf_apply, divf_apply, broadcastTo_a1_ab_apply, maximumf_apply, sqrt_apply, hc, broadcast_apply, broadcast_apply]
  show max (Ideal.div (o (ix2 r j)) (max (Ideal.sqrt _) (Ideal.ofBits .f32 0x2B8CBCCC#32))) (Ideal.ofBits .f32 0x00000000#32) = _
  rw [Ideal.ofBits_zero_f32]

/-- The body's result at (r, j): the specification's layer applied to row r of the blocks. -/
theorem pay_apply (v0 : FVec Ideal S4000x128 .f32) (v2 : FVec Ideal S4000x1 .f32) (v7 : FVec Ideal S4000x128 .bf16)
    (v9 v11 : FVec Ideal S128x256 .bf16) (v13 : FVec Ideal S1x256 .f32) (r : Fin 4000) (j : Fin 256) :
    k0_pay1 (F := Ideal) v0 v2 v7 v9 v11 v13 (ix2 r j)
      = Sage.normRelu (Sage.dense (fun k : Fin 128 => v0 (ix2 r k) * v2 (ix2 r 0)) (fun k : Fin 128 => v7 (ix2 r k))
          (fun (k : Fin 128) (j : Fin 256) => v9 (ix2 k j)) (fun (k : Fin 128) (j : Fin 256) => v11 (ix2 k j))
          (fun j : Fin 256 => v13 (ix2 0 j))) j := by
  rw [pay_eq, normBlock_apply]
  exact congrArg (fun o => Sage.normRelu o j) (funext fun j' => denseBlock_apply v0 v2 v7 v9 v11 v13 r j')

/-! ## From the ten tiles to the whole array -/

/-- Offsets (0, 0), however the zeros are written. -/
theorem hz : (![0, 0] : Fin 2 → Nat) = fun _ => 0 := funext fun a => by fin_cases a <;> rfl

/-- The tiles' positions, decided over the ten tiles: the three row-tiled inputs sit at the result's tile of rows and
    at column block 0; the weights and the bias row are always block (0, 0); the result's tile of rows is one of
    0 … 9, its column block 0. -/
theorem idx_facts : ∀ t : Fin cfg0.N,
      win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every tile of rows 0 … 9 is some grid point's. -/
theorem idx_onto : ∀ q : Fin 10, ∃ t : Fin cfg0.N, win0_6.index t = ![q.val, 0] :=
  (by decide +kernel : ∀ q : Fin 10, ∃ t : Fin grid0.N, win0_6.index t = ![q.val, 0])

/-- Row r of tile t of the neighbour sums is row n = 4000·(tile) + r of the array. -/
theorem tile_sums (c : Dev nD) (t : Fin cfg0.N) (r : Fin 4000) (k : Fin 128) (n : Fin 40000)
    (hn : n.val = win0_6.index t (0 : Fin 2) * 4000 + r.val) :
    (iblk0 (F := Ideal) V c 0 t : FVec Ideal S4000x128 .f32) (ix2 r k) = V c main_v33 (ix2 n k) := by
  obtain ⟨e0, e1, -⟩ := idx_facts t
  show V c main_v33 (((cfg0.win 0).blk t).view.emb (ix2 r k)) = V c main_v33 (ix2 n k)
  refine congrArg (V c main_v33) (funext fun a => Fin.ext ?_)
  match a with
  | ⟨0, _⟩ => show win0_0.index t (0 : Fin 2) * 4000 + 1 * r.val = n.val; omega
  | ⟨1, _⟩ => show win0_0.index t (1 : Fin 2) * 128 + 1 * k.val = k.val; omega

/-- The same for the features. -/
theorem tile_feats (c : Dev nD) (t : Fin cfg0.N) (r : Fin 4000) (k : Fin 128) (n : Fin 40000)
    (hn : n.val = win0_6.index t (0 : Fin 2) * 4000 + r.val) :
    (iblk0 (F := Ideal) V c 1 t : FVec Ideal S4000x128 .bf16) (ix2 r k) = V c main_v22 (ix2 n k) := by
  obtain ⟨-, -, e0, e1, -⟩ := idx_facts t
  show V c main_v22 (((cfg0.win 1).blk t).view.emb (ix2 r k)) = V c main_v22 (ix2 n k)
  refine congrArg (V c main_v22) (funext fun a => Fin.ext ?_)
  match a with
  | ⟨0, _⟩ => show win0_1.index t (0 : Fin 2) * 4000 + 1 * r.val = n.val; omega
  | ⟨1, _⟩ => show win0_1.index t (1 : Fin 2) * 128 + 1 * k.val = k.val; omega

/-- The same for the column of reciprocal counts. -/
theorem tile_recip (c : Dev nD) (t : Fin cfg0.N) (r : Fin 4000) (n : Fin 40000)
    (hn : n.val = win0_6.index t (0 : Fin 2) * 4000 + r.val) :
    (iblk0 (F := Ideal) V c 2 t : FVec Ideal S4000x1 .f32) (ix2 r 0) = V c main_v12 (ix2 n 0) := by
  obtain ⟨-, -, -, -, e0, e1, -⟩ := idx_facts t
  show V c main_v12 (((cfg0.win 2).blk t).view.emb (ix2 r 0)) = V c main_v12 (ix2 n 0)
  refine congrArg (V c main_v12) (funext fun a => Fin.ext ?_)
  match a with
  | ⟨0, _⟩ => show win0_2.index t (0 : Fin 2) * 4000 + 1 * r.val = n.val; omega
  | ⟨1, _⟩ => show win0_2.index t (1 : Fin 2) * 1 + 1 * 0 = 0; omega

/-- Every tile reads the whole left weight matrix. -/
theorem tile_wl (c : Dev nD) (t : Fin cfg0.N) (k : Fin 128) (j : Fin 256) :
    (iblk0 (F := Ideal) V c 3 t : FVec Ideal S128x256 .bf16) (ix2 k j) = V c main_v34 (ix2 k j) := by
  obtain ⟨-, -, -, -, -, -, e0, e1, -⟩ := idx_facts t
  show V c main_v34 (((cfg0.win 3).blk t).view.emb (ix2 k j)) = V c main_v34 (ix2 k j)
  refine congrArg (V c main_v34) (funext fun a => Fin.ext ?_)
  match a with
  | ⟨0, _⟩ => show win0_3.index t (0 : Fin 2) * 128 + 1 * k.val = k.val; omega
  | ⟨1, _⟩ => show win0_3.index t (1 : Fin 2) * 256 + 1 * j.val = j.val; omega

/-- Every tile reads the whole bias row. -/
theorem tile_bias (c : Dev nD) (t : Fin cfg0.N) (j : Fin 256) :
    (iblk0 (F := Ideal) V c 4 t : FVec Ideal S1x256 .f32) (ix2 0 j) = V c main_v36 (ix2 0 j) := by
  obtain ⟨-, -, -, -, -, -, -, -, e0, e1, -⟩ := idx_facts t
  show V c main_v36 (((cfg0.win 4).blk t).view.emb (ix2 0 j)) = V c main_v36 (ix2 0 j)
  refine congrArg (V c main_v36) (funext fun a => Fin.ext ?_)
  match a with
  | ⟨0, _⟩ => show win0_4.index t (0 : Fin 2) * 1 + 1 * 0 = 0; omega
  | ⟨1, _⟩ => show win0_4.index t (1 : Fin 2) * 256 + 1 * j.val = j.val; omega

/-- Every tile reads the whole right weight matrix. -/
theorem tile_wr (c : Dev nD) (t : Fin cfg0.N) (k : Fin 128) (j : Fin 256) :
    (iblk0 (F := Ideal) V c 5 t : FVec Ideal S128x256 .bf16) (ix2 k j) = V c main_v35 (ix2 k j) := by
  obtain ⟨-, -, -, -, -, -, -, -, -, -, e0, e1, -⟩ := idx_facts t
  show V c main_v35 (((cfg0.win 5).blk t).view.emb (ix2 k j)) = V c main_v35 (ix2 k j)
  refine congrArg (V c main_v35) (funext fun a => Fin.ext ?_)
  match a with
  | ⟨0, _⟩ => show win0_5.index t (0 : Fin 2) * 128 + 1 * k.val = k.val; omega
  | ⟨1, _⟩ => show win0_5.index t (1 : Fin 2) * 256 + 1 * j.val = j.val; omega

/-- The layer map read at (n, j). -/
theorem layerMul_apply {N K J : Nat} (a x : (⟨2, ![N, K]⟩ : Shape).Idx → EReal) (s : (⟨2, ![N, 1]⟩ : Shape).Idx → EReal)
    (wl wr : (⟨2, ![K, J]⟩ : Shape).Idx → EReal) (b : (⟨2, ![1, J]⟩ : Shape).Idx → EReal) (n : Fin N) (j : Fin J) :
    Sage.layerMul a x s wl wr b (ix2 n j)
      = Sage.normRelu (Sage.dense (fun k : Fin K => a (ix2 n k) * s (ix2 n 0)) (fun k : Fin K => x (ix2 n k))
          (fun (k : Fin K) (j : Fin J) => wl (ix2 k j)) (fun (k : Fin K) (j : Fin J) => wr (ix2 k j)) (fun j : Fin J => b (ix2 0 j))) j := rfl

/-- What tile t writes back is tile t of the layer map of the whole arrays. -/
theorem flushed_eq (c : Dev nD) (t : Fin cfg0.N) :
    (dat0 (F := Ideal) V c).flushed 6 t = ((cfg0.win 6).blk t).view.read (Elt Ideal)
      (Sage.layerMul (N := 40000) (K := 128) (J := 256) (V c main_v33) (V c main_v22) (V c main_v12) (V c main_v34) (V c main_v35) (V c main_v36)) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x256) hz, View.ld_unit_zero (S := S1x256) hz]
  funext y
  have hy0 : (y 0).val < 4000 := (y 0).isLt
  have hy1 : (y 1).val < 256 := (y 1).isLt
  obtain ⟨-, -, -, -, -, -, -, -, -, -, -, -, e0, e1⟩ := idx_facts t
  obtain ⟨r, hr⟩ : ∃ r : Fin 4000, r.val = (y 0).val := ⟨⟨_, hy0⟩, rfl⟩
  obtain ⟨j, hj⟩ : ∃ j : Fin 256, j.val = (y 1).val := ⟨⟨_, hy1⟩, rfl⟩
  obtain ⟨n, hn⟩ : ∃ n : Fin 40000, n.val = win0_6.index t (0 : Fin 2) * 4000 + r.val := ⟨⟨_, by omega⟩, rfl⟩
  have ex : (cfg0.win 6).xinj (grid0.coords t) y = ix2 r j := funext fun a => Fin.ext (by
    match a with
    | ⟨0, _⟩ => exact hr.symm
    | ⟨1, _⟩ => exact hj.symm)
  have ei : ((cfg0.win 6).blk t).view.emb y = ix2 n j := funext fun a => Fin.ext (by
    match a with
    | ⟨0, _⟩ => show win0_6.index t (0 : Fin 2) * 4000 + 1 * (y 0).val = n.val; omega
    | ⟨1, _⟩ => show win0_6.index t (1 : Fin 2) * 256 + 1 * (y 1).val = j.val; omega)
  show k0_pay1 (F := Ideal) (iblk0 V c 0 t) (iblk0 V c 2 t) (iblk0 V c 1 t) (iblk0 V c 3 t) (iblk0 V c 5 t) (iblk0 V c 4 t) ((cfg0.win 6).xinj (grid0.coords t) y)
    = Sage.layerMul (N := 40000) (K := 128) (J := 256) (V c main_v33) (V c main_v22) (V c main_v12) (V c main_v34) (V c main_v35) (V c main_v36) (((cfg0.win 6).blk t).view.emb y)
  rw [ex, ei, layerMul_apply]
  refine (pay_apply _ _ _ _ _ _ r j).trans ?_
  simp only [tile_sums V c t r _ n hn, tile_feats V c t r _ n hn, tile_recip V c t r n hn, tile_wl V c t, tile_wr V c t, tile_bias V c t]

/-- An index of the result array is in tile t iff each coordinate is in the tile's range on its axis. -/
theorem mem_blk (t : Fin cfg0.N) (i : S40000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v37).slice (win0_6.rect t)).set ↔ _
  rw [View.set_slice_whole, Rect.mem_set_unit]
  exact Iff.rfl

/-- Row n lies in the tile n / 4000, which is written back: the ten tiles fill the array. -/
theorem cover (i : S40000x256.Idx) : ∃ t : Fin cfg0.N, (cfg0.win 6).flush t = true ∧ i ∈ ((cfg0.win 6).blk t).view.set := by
  have hi0 : (i 0).val < 40000 := (i 0).isLt
  have hi1 : (i 1).val < 256 := (i 1).isLt
  obtain ⟨t, ht⟩ := idx_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 256 ≤ (i 1).val ∧ (i 1).val < win0_6.index t (1 : Fin 2) * 256 + 256; omega

/-- After the first launch its result array holds the layer map of the arrays the launch found. -/
theorem value (c : Dev nD) :
    (dat0 (F := Ideal) V c).arrAt 6 cfg0.N
      = Sage.layerMul (N := 40000) (K := 128) (J := 256) (V c main_v33) (V c main_v22) (V c main_v12) (V c main_v34) (V c main_v35) (V c main_v36) :=
  (dat0 (F := Ideal) V c).arrAt_eq_of_cover 6 _ (fun t _ => flushed_eq V c t) cover

end Cert.KernelIdeal.Region0

end
-- ==== Proof.Region1.lean ====
/-
  The second launch's array.  The launch cuts the 40000 nodes into twenty tiles of 2000 rows; at tile t the body forms
  the second layer's rows 2000·t … 2000·t + 1999 (the layer map of the specification, the mean as a product with the
  reciprocal count) and multiplies, contracting over the tile's rows, the 2000 × 64 matrix of indicators "row r's graph
  id is g" with them: entry (t, g, d) of the result is the tile's share of graph g's sum of feature d.
-/
import proofs.«414614_j75479755259985_3_alg».proof.Proof.Gen.KernelIdeal.Frame
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The layer's two products over 256 features: which operand entries an output entry reads -/

/-- Output entry (r, j) of a row-by-column product reads the left operand's row r … -/
theorem lhsW_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … at the summed feature k, -/
theorem lhsW_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- and the right operand's row k … -/
theorem rhsW_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … at column j. -/
theorem rhsW_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000 × 256 by 256 × 256 product accumulated onto zero: entry (r, j) is Σ_k a(r, k) · b(k, j). -/
theorem matmulW_apply (a : FVec Ideal S2000x256 .bf16) (b : FVec Ideal S256x256 .bf16) (r : Fin 2000) (j : Fin 256) :
    matmul dot_S2000x256_S256x256_S2000x256_1_0_0_1_n_n none a b (constant (F := Ideal) S2000x256 .f32 0x00000000#32) (ix2 r j)
      = ∑ k : Fin 256, a (ix2 r k) * b (ix2 k j) := by
  refine (Ideal.matmul_constant_zero_apply dot_S2000x256_S256x256_S2000x256_1_0_0_1_n_n none a b (ix2 r j)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r j) ((ValueIdx.contrEquiv1 dot_S2000x256_S256x256_S2000x256_1_0_0_1_n_n 256 rfl rfl).symm k) = ix2 r k := funext fun a => Fin.ext (by
    match a with
    | ⟨0, _⟩ => exact lhsW_0 _ _
    | ⟨1, _⟩ => exact (lhsW_1 _ _).trans hk)
  have er : dot_S2000x256_S256x256_S2000x256_1_0_0_1_n_n.rhsIdx (ix2 r j) ((ValueIdx.contrEquiv1 dot_S2000x256_S256x256_S2000x256_1_0_0_1_n_n 256 rfl rfl).symm k) = ix2 k j := funext fun a => Fin.ext (by
    match a with
    | ⟨0, _⟩ => exact (rhsW_0 _ _).trans hk
    | ⟨1, _⟩ => exact rhsW_1 _ _)
  rw [el, er]

/-! ## Columns and rows spread over a tile -/

/-- A column of 2000 entries spread along 256 lanes reads its row's entry. -/
theorem colBcast256_apply {α : Type} (x : S2000x1.Idx → α) (r : Fin 2000) (j : Fin 256) :
    broadcastTo S2000x256 x broadcasts_S2000x1_S2000x256 (ix2 r j) = x (ix2 r (0 : Fin 1)) := by
  refine broadcastTo_apply x broadcasts_S2000x1_S2000x256 (ix2 r j) (ix2 r (0 : Fin 1)) fun ax => ?_
  match ax with
  | ⟨0, _⟩ => show r.val = if (2000 : Nat) = 1 then 0 else r.val; rw [if_neg (by decide)]
  | ⟨1, _⟩ => show 0 = if (1 : Nat) = 1 then 0 else j.val; rw [if_pos rfl]

/-- The same column spread along 64 lanes. -/
theorem colBcast64_apply {α : Type} (x : S2000x1.Idx → α) (r : Fin 2000) (g : Fin 64) :
    broadcastTo S2000x64 x broadcasts_S2000x1_S2000x64 (ix2 r g) = x (ix2 r (0 : Fin 1)) := by
  refine broadcastTo_apply x broadcasts_S2000x1_S2000x64 (ix2 r g) (ix2 r (0 : Fin 1)) fun ax => ?_
  match ax with
  | ⟨0, _⟩ => show r.val = if (2000 : Nat) = 1 then 0 else r.val; rw [if_neg (by decide)]
  | ⟨1, _⟩ => show 0 = if (1 : Nat) = 1 then 0 else g.val; rw [if_pos rfl]

/-- A vector of 2000 entries seen as a column: entry (r, 0) is entry r. -/
theorem colCast_apply {α : Type} (x : S2000.Idx → α) (r : Fin 2000) :
    shapeCast S2000x1 x shapeCasts_S2000_S2000x1 (ix2 r (0 : Fin 1)) = x (ix1 r) :=
  shapeCast_apply x shapeCasts_S2000_S2000x1 _ _ (by
    rw [Shape.rowMajor_val_one, Shape.rowMajor_val_two]
    show r.val = r.val * 1 + 0
    omega)

/-- The sum along the 256 lanes of row r. -/
theorem rowSum_apply (x : FVec Ideal S2000x256 .f32) (hφ : FKind.Formats .f32) (hacc : (0x00000000#32 : BitVec 32) = 0x00000000#32) (r : Fin 2000) :
    multiReduction (F := Ideal) .add [1] S2000 x 0x00000000#32 reduces_S2000x256_S2000 hφ hacc (ix1 r) = ∑ j : Fin 256, x (ix2 r j) := by
  refine (Ideal.multiReduction_add_single x 0x00000000#32 reduces_S2000x256_S2000 hφ hacc (ix1 r)).trans ?_
  refine Finset.sum_congr rfl fun k _ => congrArg x ?_
  funext a
  apply Fin.ext
  match a with
  | ⟨0, _⟩ => rfl
  | ⟨1, _⟩ => rfl

/-! ## The layer inside one tile -/

/-- The dense stage of a tile's rows as the body forms it: (mean · Wl + bias row) + x · Wr, the mean being the
    neighbour sums times the column of reciprocal counts. -/
def tileDense (v0 : Vec Ideal S2000x256 .f32) (v2 : Vec Ideal S2000x1 .f32) (v7 : Vec Ideal S2000x256 .bf16)
    (v9 v11 : Vec Ideal S256x256 .bf16) (v13 : Vec Ideal S1x256 .f32) : FVec Ideal S2000x256 .f32 :=
  have a : FVec Ideal S2000x256 .f32 := shapeCast S2000x256 v0 shapeCasts_S2000x256_S2000x256
  have s : FVec Ideal S2000x1 .f32 := shapeCast S2000x1 v2 shapeCasts_S2000x1_S2000x1
  have μ : FVec Ideal S2000x256 .bf16 := truncf .bf16 (mulf a (broadcastTo S2000x256 s broadcasts_S2000x1_S2000x256)) bitsLt_bf16_f32
  have x : FVec Ideal S2000x256 .bf16 := shapeCast S2000x256 v7 shapeCasts_S2000x256_S2000x256
  have wl : FVec Ideal S256x256 .bf16 := shapeCast S256x256 v9 shapeCasts_S256x256_S256x256
  have wr : FVec Ideal S256x256 .bf16 := shapeCast S256x256 v11 shapeCasts_S256x256_S256x256
  have b : FVec Ideal S1x256 .f32 := shapeCast S1x256 v13 shapeCasts_S1x256_S1x256
  addf
    (addf (matmul dot_S2000x256_S256x256_S2000x256_1_0_0_1_n_n none μ wl (constant S2000x256 .f32 0x00000000#32))
      (broadcastTo S2000x256 b broadcasts_S1x256_S2000x256))
    (matmul dot_S2000x256_S256x256_S2000x256_1_0_0_1_n_n none x wr (constant S2000x256 .f32 0x00000000#32))

/-- The normalisation of a tile's rows as the body forms it: each row over max(√(Σ squares), floor), clipped below at 0. -/
def tileNorm (o : FVec Ideal S2000x256 .f32) : FVec Ideal S2000x256 .bf16 :=
  truncf .bf16
    (maximumf
      (divf o
        (broadcastTo S2000x256
          (maximumf
            (sqrt (shapeCast S2000x1
              (multiReduction .add [1] S2000 (mulf o o) 0x00000000#32 reduces_S2000x256_S2000 (.inl rfl) rfl)
              shapeCasts_S2000_S2000x1))
            (broadcast S2000x1 (Scalar.ofBits .f32 0x2B8CBCCC#32)))
          broadcasts_S2000x1_S2000x256))
      (broadcast S2000x256 (Scalar.ofBits .f32 0x00000000#32)))
    bitsLt_bf16_f32

/-- The body's layer value is the normalisation of its dense stage. -/
theorem pay3_eq (v0 : Vec Ideal S2000x256 .f32) (v2 : Vec Ideal S2000x1 .f32) (v7 : Vec Ideal S2000x256 .bf16)
    (v9 v11 : Vec Ideal S256x256 .bf16) (v13 : Vec Ideal S1x256 .f32) :
    k1_pay3 v0 v2 v7 v9 v11 v13 = tileNorm (tileDense v0 v2 v7 v9 v11 v13) := rfl

/-- Entry (r, j) of the dense stage is the specification's dense stage of row r at feature j. -/
theorem tileDense_apply (v0 : Vec Ideal S2000x256 .f32) (v2 : Vec Ideal S2000x1 .f32) (v7 : Vec Ideal S2000x256 .bf16)
    (v9 v11 : Vec Ideal S256x256 .bf16) (v13 : Vec Ideal S1x256 .f32) (r : Fin 2000) (j : Fin 256) :
    tileDense v0 v2 v7 v9 v11 v13 (ix2 r j)
      = Sage.dense (fun k : Fin 256 => v0 (ix2 r k) * v2 (ix2 r (0 : Fin 1))) (fun k : Fin 256 => v7 (ix2 r k))
          (fun (k : Fin 256) (j : Fin 256) => v9 (ix2 k j)) (fun (k : Fin 256) (j : Fin 256) => v11 (ix2 k j))
          (fun j : Fin 256 => v13 (ix2 (0 : Fin 1) j)) j := by
  unfold tileDense Sage.dense
  dsimp only
  simp only [shapeCast_self]
  rw [addf_apply, addf_apply, matmulW_apply, matmulW_apply, broadcastTo_1b_ab_apply]
  simp only [truncf_apply, mulf_apply, colBcast256_apply]

/-- Entry (r, j) of the normalisation is the specification's normalised, clipped row r at feature j. -/
theorem tileNorm_apply (o : FVec Ideal S2000x256 .f32) (r : Fin 2000) (j : Fin 256) :
    tileNorm o (ix2 r j) = Sage.normRelu (fun j' : Fin 256 => o (ix2 r j')) j := by
  unfold tileNorm Sage.normRelu
  rw [truncf_apply, maximumf_apply, divf_apply, broadcast_apply, colBcast256_apply, maximumf_apply, broadcast_apply]
  show max (Ideal.div (o (ix2 r j)) (max (Ideal.sqrt (shapeCast S2000x1
      (multiReduction (F := Ideal) .add [1] S2000 (mulf o o) 0x00000000#32 reduces_S2000x256_S2000 (.inl rfl) rfl)
      shapeCasts_S2000_S2000x1 (ix2 r (0 : Fin 1)))) (Ideal.ofBits .f32 0x2B8CBCCC#32))) (Ideal.ofBits .f32 0x00000000#32) = _
  rw [colCast_apply, rowSum_apply, Ideal.ofBits_zero_f32]
  rfl

/-- Entry (r, j) of the body's layer value, from the blocks it loads. -/
theorem pay3_apply (v0 : Vec Ideal S2000x256 .f32) (v2 : Vec Ideal S2000x1 .f32) (v7 : Vec Ideal S2000x256 .bf16)
    (v9 v11 : Vec Ideal S256x256 .bf16) (v13 : Vec Ideal S1x256 .f32) (r : Fin 2000) (j : Fin 256) :
    k1_pay3 v0 v2 v7 v9 v11 v13 (ix2 r j)
      = Sage.normRelu (Sage.dense (fun k : Fin 256 => v0 (ix2 r k) * v2 (ix2 r (0 : Fin 1))) (fun k : Fin 256 => v7 (ix2 r k))
          (fun (k : Fin 256) (j : Fin 256) => v9 (ix2 k j)) (fun (k : Fin 256) (j : Fin 256) => v11 (ix2 k j))
          (fun j : Fin 256 => v13 (ix2 (0 : Fin 1) j))) j := by
  rw [pay3_eq, tileNorm_apply]
  congr 1
  funext j'
  exact tileDense_apply v0 v2 v7 v9 v11 v13 r j'

/-! ## The indicator matrix of a tile -/

/-- Entry (r, g) of the body's indicator matrix: the graph id of row r compared with the lane number g, the one-bit
    answer widened to 32 bits (1 or 0) and read as a signed integer — 1 when the id is the word of g, else 0. -/
theorem pay2_apply (v30 : Vec Ideal S2000x1 .i32) (r : Fin 2000) (g : Fin 64) :
    k1_pay2 (F := Ideal) v30 (ix2 r g) = Sage.onehot (v30 (ix2 r (0 : Fin 1))) g := by
  unfold k1_pay2
  dsimp only
  simp only [shapeCast_self]
  rw [truncf_apply, sitofp_apply, extui_apply]
  show ((((IntOp.cmpi .eq (broadcastTo S2000x64 v30 broadcasts_S2000x1_S2000x64 (ix2 r g))
      (iota .tc S2000x64 32 [1] iota_S2000x64_d1_w32 (ix2 r g))).setWidth 32).toInt : ℝ) : EReal) = _
  rw [colBcast64_apply, iota_single_apply]
  show ((((BitVec.ofBool (v30 (ix2 r (0 : Fin 1)) == BitVec.ofNat 32 g.val)).setWidth 32).toInt : ℝ) : EReal) = _
  unfold Sage.onehot
  by_cases h : v30 (ix2 r (0 : Fin 1)) = BitVec.ofNat 32 g.val
  · have hb : (v30 (ix2 r (0 : Fin 1)) == BitVec.ofNat 32 g.val) = true := beq_iff_eq.mpr h
    rw [if_pos h, hb, show ((BitVec.ofBool true).setWidth 32).toInt = 1 from by decide]
    simp only [Int.cast_one, EReal.coe_one]
  · have hb : (v30 (ix2 r (0 : Fin 1)) == BitVec.ofNat 32 g.val) = false := beq_eq_false_iff_ne.mpr h
    rw [if_neg h, hb, show ((BitVec.ofBool false).setWidth 32).toInt = 0 from by decide]
    simp only [Int.cast_zero, EReal.coe_zero]

/-! ## The product over a tile's rows -/

/-- Output entry (g, d) of the product over rows reads the left operand at the summed row … -/
theorem lhsP_0 (i : S64x256.Idx) (q : dot_S2000x64_S2000x256_S64x256_0_0_1_1_n_n.contr.Idx) :
    (dot_S2000x64_S2000x256_S64x256_0_0_1_1_n_n.lhsIdx i q 0).val = (q ⟨0, by decide⟩).val :=
  dot_S2000x64_S2000x256_S64x256_0_0_1_1_n_n.lhsIdx_val_of_single rfl i q
/-- … and column g, -/
theorem lhsP_1 (i : S64x256.Idx) (q : dot_S2000x64_S2000x256_S64x256_0_0_1_1_n_n.contr.Idx) :
    (dot_S2000x64_S2000x256_S64x256_0_0_1_1_n_n.lhsIdx i q 1).val = (i 0).val := by
  unfold DotDims.lhsIdx
  rw [dif_neg (show ¬(1 : Fin S2000x64.rank) ∈ dot_S2000x64_S2000x256_S64x256_0_0_1_1_n_n.lhsBatch by decide), dif_pos (show (1 : Fin S2000x64.rank) ∈ dot_S2000x64_S2000x256_S64x256_0_0_1_1_n_n.lhsNonContracting by decide)]
  rfl
/-- and the right operand at the summed row … -/
theorem rhsP_0 (i : S64x256.Idx) (q : dot_S2000x64_S2000x256_S64x256_0_0_1_1_n_n.contr.Idx) :
    (dot_S2000x64_S2000x256_S64x256_0_0_1_1_n_n.rhsIdx i q 0).val = (q ⟨0, by decide⟩).val :=
  dot_S2000x64_S2000x256_S64x256_0_0_1_1_n_n.rhsIdx_val_of_single rfl i q
/-- … and column d. -/
theorem rhsP_1 (i : S64x256.Idx) (q : dot_S2000x64_S2000x256_S64x256_0_0_1_1_n_n.contr.Idx) :
    (dot_S2000x64_S2000x256_S64x256_0_0_1_1_n_n.rhsIdx i q 1).val = (i 1).val := by
  unfold DotDims.rhsIdx
  rw [dif_neg (show ¬(1 : Fin S2000x256.rank) ∈ dot_S2000x64_S2000x256_S64x256_0_0_1_1_n_n.rhsBatch by decide), dif_pos (show (1 : Fin S2000x256.rank) ∈ dot_S2000x64_S2000x256_S64x256_0_0_1_1_n_n.rhsNonContracting by decide)]
  rfl

/-- The product contracting the 2000 rows of both operands, accumulated onto zero: entry (g, d) is Σ_r a(r, g) · b(r, d). -/
theorem matmulP_apply (a : FVec Ideal S2000x64 .bf16) (b : FVec Ideal S2000x256 .bf16) (g : Fin 64) (d : Fin 256) :
    matmul dot_S2000x64_S2000x256_S64x256_0_0_1_1_n_n none a b (constant (F := Ideal) S64x256 .f32 0x00000000#32) (ix2 g d)
      = ∑ r : Fin 2000, a (ix2 r g) * b (ix2 r d) := by
  refine (Ideal.matmul_constant_zero_apply dot_S2000x64_S2000x256_S64x256_0_0_1_1_n_n none a b (ix2 g d)).trans ?_
  rw [← Equiv.sum_comp (ValueIdx.contrEquiv1 dot_S2000x64_S2000x256_S64x256_0_0_1_1_n_n 2000 rfl rfl).symm]
  refine Finset.sum_congr rfl fun k _ => ?_
  have hk := ValueIdx.contrEquiv1_symm_val dot_S2000x64_S2000x256_S64x256_0_0_1_1_n_n 2000 rfl rfl k
  have el : dot_S2000x64_S2000x256_S64x256_0_0_1_1_n_n.lhsIdx (ix2 g d) ((ValueIdx.contrEquiv1 dot_S2000x64_S2000x256_S64x256_0_0_1_1_n_n 2000 rfl rfl).symm k) = ix2 k g := funext fun a => Fin.ext (by
    match a with
    | ⟨0, _⟩ => exact (lhsP_0 _ _).trans hk
    | ⟨1, _⟩ => exact lhsP_1 _ _)
  have er : dot_S2000x64_S2000x256_S64x256_0_0_1_1_n_n.rhsIdx (ix2 g d) ((ValueIdx.contrEquiv1 dot_S2000x64_S2000x256_S64x256_0_0_1_1_n_n 2000 rfl rfl).symm k) = ix2 k d := funext fun a => Fin.ext (by
    match a with
    | ⟨0, _⟩ => exact (rhsP_0 _ _).trans hk
    | ⟨1, _⟩ => exact rhsP_1 _ _)
  rw [el, er]

/-- Entry (0, g, d) of what the body stores: the indicator column g times the feature column d, summed over the tile's rows. -/
theorem pay1_apply (o : FVec Ideal S2000x64 .bf16) (h : FVec Ideal S2000x256 .bf16) (u : Fin 1) (g : Fin 64) (d : Fin 256) :
    k1_pay1 o h (constant (F := Ideal) S64x256 .f32 0x00000000#32) (ix3 u g d) = ∑ r : Fin 2000, o (ix2 r g) * h (ix2 r d) := by
  unfold k1_pay1
  rw [shapeCast_ab_1ab_apply, matmulP_apply]

/-! ## What one grid point stores, from the blocks it loads -/

/-- Entry y = (0, g, d) of the stored block: over the tile's rows, the indicator of "row r is of graph g" times feature d
    of the layer's row r, both written from the loaded blocks. -/
theorem body_apply (x0 : Vec Ideal S2000x256 .f32) (x1 : Vec Ideal S2000x256 .bf16) (x2 : Vec Ideal S2000x1 .f32)
    (x3 : Vec Ideal S256x256 .bf16) (x4 : Vec Ideal S1x256 .f32) (x5 : Vec Ideal S256x256 .bf16) (x6 : Vec Ideal S2000x1 .i32)
    (y : S1x64x256.Idx) :
    k1_pay1 (k1_pay2 x6) (k1_pay3 x0 x2 x1 x3 x5 x4) (constant (F := Ideal) S64x256 .f32 0x00000000#32) y
      = ∑ r : Fin 2000, Sage.onehot (x6 (ix2 r (0 : Fin 1))) (y 1)
          * Sage.normRelu (Sage.dense (fun k : Fin 256 => x0 (ix2 r k) * x2 (ix2 r (0 : Fin 1))) (fun k : Fin 256 => x1 (ix2 r k))
              (fun (k : Fin 256) (j : Fin 256) => x3 (ix2 k j)) (fun (k : Fin 256) (j : Fin 256) => x5 (ix2 k j))
              (fun j : Fin 256 => x4 (ix2 (0 : Fin 1) j))) (y 2) := by
  obtain ⟨u, g, d, rfl⟩ : ∃ (u : Fin 1) (g : Fin 64) (d : Fin 256), y = ix3 u g d := ⟨y 0, y 1, y 2, eq_ix3 y⟩
  rw [pay1_apply]
  refine Finset.sum_congr rfl fun r _ => ?_
  rw [pay2_apply, pay3_apply]

/-! ## The blocks of the launch, read in their arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: the four row-tiled inputs and the result move with the point along their first axis,
    the two weight matrices and the bias row stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- Row r of the neighbour sums' block at point t is row 2000·t + r of the array. -/
theorem blk0_apply (c : Dev nD) (t : Fin cfg1.N) (r : Fin 2000) (k : Fin 256) (n : Fin 40000) (hn : n.val = 2000 * t.val + r.val) :
    iblk1 (F := Ideal) V c 0 t (ix2 r k) = V c main_v48 (ix2 n k) := by
  obtain ⟨e0, e1, -⟩ := idx_facts t
  show V c main_v48 (((cfg1.win 0).blk t).view.emb (ix2 r k)) = V c main_v48 (ix2 n k)
  refine congrArg (V c main_v48) (funext fun a => Fin.ext ?_)
  match a with
  | ⟨0, _⟩ => show win1_0.index t (0 : Fin 2) * 2000 + 1 * r.val = n.val; rw [e0, hn]; omega
  | ⟨1, _⟩ => show win1_0.index t (1 : Fin 2) * 256 + 1 * k.val = k.val; rw [e1]; omega

/-- The same for the first layer's result. -/
theorem blk1_apply (c : Dev nD) (t : Fin cfg1.N) (r : Fin 2000) (k : Fin 256) (n : Fin 40000) (hn : n.val = 2000 * t.val + r.val) :
    iblk1 (F := Ideal) V c 1 t (ix2 r k) = V c main_v37 (ix2 n k) := by
  obtain ⟨-, -, e0, e1, -⟩ := idx_facts t
  show V c main_v37 (((cfg1.win 1).blk t).view.emb (ix2 r k)) = V c main_v37 (ix2 n k)
  refine congrArg (V c main_v37) (funext fun a => Fin.ext ?_)
  match a with
  | ⟨0, _⟩ => show win1_1.index t (0 : Fin 2) * 2000 + 1 * r.val = n.val; rw [e0, hn]; omega
  | ⟨1, _⟩ => show win1_1.index t (1 : Fin 2) * 256 + 1 * k.val = k.val; rw [e1]; omega

/-- The same for the column of reciprocal counts. -/
theorem blk2_apply (c : Dev nD) (t : Fin cfg1.N) (r : Fin 2000) (n : Fin 40000) (hn : n.val = 2000 * t.val + r.val) :
    iblk1 (F := Ideal) V c 2 t (ix2 r (0 : Fin 1)) = V c main_v12 (ix2 n (0 : Fin 1)) := by
  obtain ⟨-, -, -, -, e0, e1, -⟩ := idx_facts t
  show V c main_v12 (((cfg1.win 2).blk t).view.emb (ix2 r (0 : Fin 1))) = V c main_v12 (ix2 n (0 : Fin 1))
  refine congrArg (V c main_v12) (funext fun a => Fin.ext ?_)
  match a with
  | ⟨0, _⟩ => show win1_2.index t (0 : Fin 2) * 2000 + 1 * r.val = n.val; rw [e0, hn]; omega
  | ⟨1, _⟩ => show win1_2.index t (1 : Fin 2) * 1 + 1 * 0 = 0; rw [e1]

/-- The left weight matrix's block is the whole matrix. -/
theorem blk3_apply (c : Dev nD) (t : Fin cfg1.N) (k j : Fin 256) :
    iblk1 (F := Ideal) V c 3 t (ix2 k j) = V c main_v49 (ix2 k j) := by
  obtain ⟨-, -, -, -, -, -, e0, e1, -⟩ := idx_facts t
  show V c main_v49 (((cfg1.win 3).blk t).view.emb (ix2 k j)) = V c main_v49 (ix2 k j)
  refine congrArg (V c main_v49) (funext fun a => Fin.ext ?_)
  match a with
  | ⟨0, _⟩ => show win1_3.index t (0 : Fin 2) * 256 + 1 * k.val = k.val; rw [e0]; omega
  | ⟨1, _⟩ => show win1_3.index t (1 : Fin 2) * 256 + 1 * j.val = j.val; rw [e1]; omega

/-- The bias row's block is the whole row. -/
theorem blk4_apply (c : Dev nD) (t : Fin cfg1.N) (j : Fin 256) :
    iblk1 (F := Ideal) V c 4 t (ix2 (0 : Fin 1) j) = V c main_v51 (ix2 (0 : Fin 1) j) := by
  obtain ⟨-, -, -, -, -, -, -, -, e0, e1, -⟩ := idx_facts t
  show V c main_v51 (((cfg1.win 4).blk t).view.emb (ix2 (0 : Fin 1) j)) = V c main_v51 (ix2 (0 : Fin 1) j)
  refine congrArg (V c main_v51) (funext fun a => Fin.ext ?_)
  match a with
  | ⟨0, _⟩ => show win1_4.index t (0 : Fin 2) * 1 + 1 * 0 = 0; rw [e0]
  | ⟨1, _⟩ => show win1_4.index t (1 : Fin 2) * 256 + 1 * j.val = j.val; rw [e1]; omega

/-- The right weight matrix's block is the whole matrix. -/
theorem blk5_apply (c : Dev nD) (t : Fin cfg1.N) (k j : Fin 256) :
    iblk1 (F := Ideal) V c 5 t (ix2 k j) = V c main_v50 (ix2 k j) := by
  obtain ⟨-, -, -, -, -, -, -, -, -, -, e0, e1, -⟩ := idx_facts t
  show V c main_v50 (((cfg1.win 5).blk t).view.emb (ix2 k j)) = V c main_v50 (ix2 k j)
  refine congrArg (V c main_v50) (funext fun a => Fin.ext ?_)
  match a with
  | ⟨0, _⟩ => show win1_5.index t (0 : Fin 2) * 256 + 1 * k.val = k.val; rw [e0]; omega
  | ⟨1, _⟩ => show win1_5.index t (1 : Fin 2) * 256 + 1 * j.val = j.val; rw [e1]; omega

/-- Row r of the graph ids' block at point t is row 2000·t + r of the column of ids. -/
theorem blk6_apply (c : Dev nD) (t : Fin cfg1.N) (r : Fin 2000) (n : Fin 40000) (hn : n.val = 2000 * t.val + r.val) :
    iblk1 (F := Ideal) V c 6 t (ix2 r (0 : Fin 1)) = V c main_v52 (ix2 n (0 : Fin 1)) := by
  obtain ⟨-, -, -, -, -, -, -, -, -, -, -, -, e0, e1, -⟩ := idx_facts t
  show V c main_v52 (((cfg1.win 6).blk t).view.emb (ix2 r (0 : Fin 1))) = V c main_v52 (ix2 n (0 : Fin 1))
  refine congrArg (V c main_v52) (funext fun a => Fin.ext ?_)
  match a with
  | ⟨0, _⟩ => show win1_6.index t (0 : Fin 2) * 2000 + 1 * r.val = n.val; rw [e0, hn]; omega
  | ⟨1, _⟩ => show win1_6.index t (1 : Fin 2) * 1 + 1 * 0 = 0; rw [e1]

/-! ## One grid point's block is the tile's share of the per-graph sums -/

/-- Entry y of what point t stores is the specification's entry i, when i is y moved to slab t of the result. -/
theorem point_eq (c : Dev nD) (t : Fin cfg1.N) (y : S1x64x256.Idx) (i : S20x64x256.Idx)
    (h0 : (i 0).val = t.val) (h1 : (i 1).val = (y 1).val) (h2 : (i 2).val = (y 2).val) :
    k1_pay1 (k1_pay2 (iblk1 (F := Ideal) V c 6 t))
        (k1_pay3 (iblk1 (F := Ideal) V c 0 t) (iblk1 (F := Ideal) V c 2 t) (iblk1 (F := Ideal) V c 1 t) (iblk1 (F := Ideal) V c 3 t)
          (iblk1 (F := Ideal) V c 5 t) (iblk1 (F := Ideal) V c 4 t))
        (constant (F := Ideal) S64x256 .f32 0x00000000#32) y
      = Sage.poolPartial (V c main_v52)
          (Sage.layerMul (N := 40000) (K := 256) (J := 256) (V c main_v48) (V c main_v37) (V c main_v12) (V c main_v49) (V c main_v50) (V c main_v51)) i := by
  refine (body_apply _ _ _ _ _ _ _ y).trans ?_
  unfold Sage.poolPartial Sage.layerMul
  dsimp only
  have e1 : (y 1 : Fin 64) = i 1 := Fin.ext h1.symm
  have e2 : (y 2 : Fin 256) = i 2 := Fin.ext h2.symm
  rw [e1, e2]
  refine Finset.sum_congr rfl fun r _ => ?_
  have hn : (Sage.tileRow (i 0) r).val = 2000 * t.val + r.val := by
    show 2000 * (i 0).val + r.val = 2000 * t.val + r.val
    rw [h0]
  simp only [blk0_apply V c t r _ _ hn, blk1_apply V c t r _ _ hn, blk2_apply V c t r _ hn, blk3_apply V c t, blk4_apply V c t,
    blk5_apply V c t, blk6_apply V c t r _ hn]

/-- What point t writes back is block t of the tiles' shares. -/
theorem flushed_eq (c : Dev nD) (t : Fin cfg1.N) :
    (dat1 (F := Ideal) V c).flushed 7 t
      = ((cfg1.win 7).blk t).view.read (Elt Ideal)
          (Sage.poolPartial (V c main_v52)
            (Sage.layerMul (N := 40000) (K := 256) (J := 256) (V c main_v48) (V c main_v37) (V c main_v12) (V c main_v49) (V c main_v50) (V c main_v51))) := by
  show (cfg1.win 7).cut (grid1.coords t) ((dat1 (F := Ideal) V c).after 7 t) = _
  rw [after1_7]
  unfold out1_7
  rw [View.canon_unit_zero hz3]
  simp only [View.ld_unit_zero (S := S2000x256) hz2, View.ld_unit_zero (S := S2000x1) hz2, View.ld_unit_zero (S := S256x256) hz2,
    View.ld_unit_zero (S := S1x256) hz2]
  obtain ⟨-, -, -, -, -, -, -, -, -, -, -, -, -, -, e0, e1, e2⟩ := idx_facts t
  funext y
  refine point_eq V c t y (((cfg1.win 7).blk t).view.emb y) ?_ ?_ ?_
  · show win1_7.index t (0 : Fin 3) * 1 + 1 * (y 0).val = t.val
    have hy : (y 0).val < 1 := (y 0).isLt
    rw [e0]; omega
  · show win1_7.index t (1 : Fin 3) * 64 + 1 * (y 1).val = (y 1).val
    rw [e1]; omega
  · show win1_7.index t (2 : Fin 3) * 256 + 1 * (y 2).val = (y 2).val
    rw [e2]; omega

/-- An entry of the result is in point t's block iff each coordinate is in the block's range on its axis. -/
theorem mem_blk (t : Fin cfg1.N) (i : S20x64x256.Idx) :
    i ∈ ((cfg1.win 7).blk t).view.set ↔ ∀ a : Fin 3, win1_7.index t a * S1x64x256.size a ≤ (i a).val ∧ (i a).val < win1_7.index t a * S1x64x256.size a + S1x64x256.size a := by
  show i ∈ ((View.whole main_v53).slice (win1_7.rect t)).set ↔ _
  rw [View.set_slice_whole, Rect.mem_set_unit]
  exact Iff.rfl

/-- Entry (t', g, d) of the result is in the block of point t'. -/
theorem cover (i : S20x64x256.Idx) : ∃ t : Fin cfg1.N, (cfg1.win 7).flush t = true ∧ i ∈ ((cfg1.win 7).blk t).view.set := by
  have hi0 : (i 0).val < 20 := (i 0).isLt
  have hi1 : (i 1).val < 64 := (i 1).isLt
  have hi2 : (i 2).val < 256 := (i 2).isLt
  have hN : cfg1.N = 20 := N_1
  obtain ⟨t, ht⟩ : ∃ t : Fin cfg1.N, t.val = (i 0).val := ⟨⟨(i 0).val, by rw [hN]; exact hi0⟩, rfl⟩
  obtain ⟨-, -, -, -, -, -, -, -, -, -, -, -, -, -, e0, e1, e2⟩ := idx_facts t
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; rw [e0]; omega
  | ⟨1, _⟩ => show win1_7.index t (1 : Fin 3) * 64 ≤ (i 1).val ∧ (i 1).val < win1_7.index t (1 : Fin 3) * 64 + 64; rw [e1]; omega
  | ⟨2, _⟩ => show win1_7.index t (2 : Fin 3) * 256 ≤ (i 2).val ∧ (i 2).val < win1_7.index t (2 : Fin 3) * 256 + 256; rw [e2]; omega

/-- After the second launch its result array holds, tile by tile, the per-graph partial sums of the second layer's rows. -/
theorem value (c : Dev nD) :
    (dat1 (F := Ideal) V c).arrAt 7 cfg1.N
      = Sage.poolPartial (V c main_v52)
          (Sage.layerMul (N := 40000) (K := 256) (J := 256) (V c main_v48) (V c main_v37) (V c main_v12) (V c main_v49) (V c main_v50) (V c main_v51)) :=
  (dat1 (F := Ideal) V c).arrAt_eq_of_cover 7
    (Sage.poolPartial (V c main_v52)
      (Sage.layerMul (N := 40000) (K := 256) (J := 256) (V c main_v48) (V c main_v37) (V c main_v12) (V c main_v49) (V c main_v50) (V c main_v51)))
    (fun t _ => flushed_eq V c t) cover

end Cert.KernelIdeal.Region1

end
-- ==== Proof.RefRead.lean ====
/-
  The reference program's run and its stage-by-stage reading, as generated; the modules that read the reference's
  stages at an index build on this one.
-/
import proofs.«414614_j75479755259985_3_alg».proof.Proof.Gen.ReferenceIdeal.Run
import proofs.«414614_j75479755259985_3_alg».proof.Proof.Gen.ReferenceIdeal.Read
-- ==== Proof.Args.lean ====
/-
  The program's argument arrays as launched, named once for the modules that speak of them.
-/
import proofs.«414614_j75479755259985_3_alg».proof.Proof.Gen.KernelIdeal.Frame
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Args

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (c : Dev nD)

/-- The argument arrays as launched. -/
abbrev x0 : (⟨S40000x128, .f32⟩ : BufTy).Contents (Elt Ideal) := m ((c : Thread nD τ).loc main_arg0)
abbrev x1 : (⟨S2x640000, .i32⟩ : BufTy).Contents (Elt Ideal) := m ((c : Thread nD τ).loc main_arg1)
abbrev x2 : (⟨S40000, .i32⟩ : BufTy).Contents (Elt Ideal) := m ((c : Thread nD τ).loc main_arg2)
abbrev x3 : (⟨S128x256, .f32⟩ : BufTy).Contents (Elt Ideal) := m ((c : Thread nD τ).loc main_arg3)
abbrev x4 : (⟨S256, .f32⟩ : BufTy).Contents (Elt Ideal) := m ((c : Thread nD τ).loc main_arg4)
abbrev x5 : (⟨S128x256, .f32⟩ : BufTy).Contents (Elt Ideal) := m ((c : Thread nD τ).loc main_arg5)
abbrev x6 : (⟨S256x256, .f32⟩ : BufTy).Contents (Elt Ideal) := m ((c : Thread nD τ).loc main_arg6)
abbrev x7 : (⟨S256, .f32⟩ : BufTy).Contents (Elt Ideal) := m ((c : Thread nD τ).loc main_arg7)
abbrev x8 : (⟨S256x256, .f32⟩ : BufTy).Contents (Elt Ideal) := m ((c : Thread nD τ).loc main_arg8)
abbrev x9 : (⟨S256x10, .f32⟩ : BufTy).Contents (Elt Ideal) := m ((c : Thread nD τ).loc main_arg9)
abbrev x10 : (⟨S10, .f32⟩ : BufTy).Contents (Elt Ideal) := m ((c : Thread nD τ).loc main_arg10)

end Cert.KernelIdeal.Args

end
-- ==== Proof.RefLayer2.lean ====
/-
  The reference's second layer, read entry by entry, over the first layer's result and its neighbour sums along the
  same edges: again the layer map of the specification with the mean as a quotient by max(count, 1), the count being
  the same function of the edge list as in the first layer.
-/
import proofs.«414614_j75479755259985_3_alg».proof.Proof.RefRead
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.ReferenceIdeal.RefLayer2

open Idealize.ShloMosaic Idealize.ShloMosaic.TcCoe Idealize.ShloMosaic.ValueIdx
open Cert.ReferenceIdeal Cert.ReferenceIdeal.Gen Cert.ReferenceIdeal.Read
open scoped BigOperators

/-- The neighbour sums of a 256-wide array along the edges, as the reference forms them. -/
def agg2 (x1 : (⟨S2x640000, .i32⟩ : BufTy).Contents (Elt Ideal)) (h : (⟨S40000x256, .f32⟩ : BufTy).Contents (Elt Ideal)) : (⟨S40000x256, .f32⟩ : BufTy).Contents (Elt Ideal) :=
  Host.scatterAdd (F := Ideal) (φ := .f32) scatter_S40000x256_S640000x1_S640000x256_1_0_0_1 (val_main_v42 (F := Ideal)) (val_main_v43 (F := Ideal) x1)
    (Host.gather gather_S40000x256_S640000x1_S640000x256_1_0_n_n_0_1_1256 h (val_main_v40 (F := Ideal) x1))

/-- The layer map at node `n`, feature `j`: the normalised, clipped dense row of that node. -/
theorem layerDiv_at {N K J : Nat} (a x : (⟨2, ![N, K]⟩ : Shape).Idx → EReal) (c : (⟨1, ![N]⟩ : Shape).Idx → EReal)
    (wl wr : (⟨2, ![K, J]⟩ : Shape).Idx → EReal) (b : (⟨1, ![J]⟩ : Shape).Idx → EReal) (n : Fin N) (j : Fin J) :
    Sage.layerDiv a x c wl wr b (ix2 n j)
      = Sage.normRelu (Sage.dense (fun k : Fin K => Ideal.div (a (ix2 n k)) (c (ix1 n))) (fun k : Fin K => x (ix2 n k))
          (fun (k : Fin K) (j : Fin J) => wl (ix2 k j)) (fun (k : Fin K) (j : Fin J) => wr (ix2 k j)) (fun j : Fin J => b (ix1 j))) j := rfl

/-- The second layer counts the edges into each node exactly as the first does: ones added along the same target column
    into zeros. -/
theorem counts_eq (x1 : (⟨S2x640000, .i32⟩ : BufTy).Contents (Elt Ideal)) :
    val_main_v48 (F := Ideal) x1 = val_main_v17 (F := Ideal) x1 := by
  unfold val_main_v48 val_main_v17 val_main_v45 val_main_v14 val_main_v46 val_main_v15 val_main_v47 val_main_v16
    val_main_cst_8 val_main_cst_1 val_main_cst_9 val_main_cst_2
  rfl

/-! Which entries the stages read: the left factor of a product at (n, j) is row n, column k; the right factor is row k,
    column j; a per-node column read at (n, ·) is entry n; the bias row read at (·, j) is entry j. -/

theorem lidx54_eq (n : Fin 40000) (j k : Fin 256) : lidx_main_v54 (ix2 n j) k = ix2 n k :=
  funext fun a => Fin.ext (by match a with | ⟨0, _⟩ => rfl | ⟨1, _⟩ => rfl)
theorem ridx54_eq (n : Fin 40000) (j k : Fin 256) : ridx_main_v54 (ix2 n j) k = ix2 k j :=
  funext fun a => Fin.ext (by match a with | ⟨0, _⟩ => rfl | ⟨1, _⟩ => rfl)
theorem lidx58_eq (n : Fin 40000) (j k : Fin 256) : lidx_main_v58 (ix2 n j) k = ix2 n k :=
  funext fun a => Fin.ext (by match a with | ⟨0, _⟩ => rfl | ⟨1, _⟩ => rfl)
theorem ridx58_eq (n : Fin 40000) (j k : Fin 256) : ridx_main_v58 (ix2 n j) k = ix2 k j :=
  funext fun a => Fin.ext (by match a with | ⟨0, _⟩ => rfl | ⟨1, _⟩ => rfl)
theorem idx51_52_eq (n : Fin 40000) (k : Fin 256) : idx_main_v51 (idx_main_v52 (ix2 n k)) = ix1 n :=
  funext fun a => Fin.ext (by match a with | ⟨0, _⟩ => rfl)
theorem idx55_56_eq (n : Fin 40000) (j : Fin 256) : idx_main_v55 (idx_main_v56 (ix2 n j)) = ix1 j :=
  funext fun a => Fin.ext (by match a with | ⟨0, _⟩ => rfl)
theorem idx_norm_eq (n : Fin 40000) (j k : Fin 256) : idx_main_call2_v1 (idx_main_call2_v2 (idx_main_v63 (ix2 n j))) k = ix2 n k :=
  funext fun a => Fin.ext (by match a with | ⟨0, _⟩ => rfl | ⟨1, _⟩ => rfl)

/-- The dense stage of node `n`, feature `j`: the mean's product with the left weights, the bias, the first layer's
    row's product with the right weights. -/
theorem dense_at (x0 : (⟨S40000x128, .f32⟩ : BufTy).Contents (Elt Ideal)) (x1 : (⟨S2x640000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (n : Fin 40000) (j : Fin 256) :
    val_main_v59 (F := Ideal) x0 x1 x3 x4 x5 x6 x7 x8 (ix2 n j)
      = Sage.dense (fun k : Fin 256 => Ideal.div (val_main_v44 (F := Ideal) x0 x1 x3 x4 x5 (ix2 n k)) (max (val_main_v17 (F := Ideal) x1 (ix1 n)) 1))
          (fun k : Fin 256 => val_main_v34 (F := Ideal) x0 x1 x3 x4 x5 (ix2 n k)) (fun (k : Fin 256) (j : Fin 256) => x6 (ix2 k j))
          (fun (k : Fin 256) (j : Fin 256) => x8 (ix2 k j)) (fun j : Fin 256 => x7 (ix1 j)) j := by
  unfold Sage.dense
  simp (config := { implicitDefEqProofs := false }) only [val_main_v59_apply, val_main_v57_apply, val_main_v54_apply, val_main_v56_apply, val_main_v55_apply, val_main_v58_apply,
    val_main_v53_apply, val_main_v52_apply, val_main_v51_apply, val_main_v50_apply, val_main_v49_apply, val_main_cst_10_apply]
  simp (config := { implicitDefEqProofs := false }) only [lidx54_eq, ridx54_eq, lidx58_eq, ridx58_eq, idx51_52_eq, idx55_56_eq, counts_eq, Ideal.hostDivf_def, Ideal.maximumf_def,
    Ideal.addf_def, Ideal.ofBits_def, Ideal.ofBits_one_f32]

/-- The second layer's neighbour sums are those of the first layer's result. -/
theorem val_main_v44_eq_agg2 (x0 : (⟨S40000x128, .f32⟩ : BufTy).Contents (Elt Ideal)) (x1 : (⟨S2x640000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) :
    val_main_v44 (F := Ideal) x0 x1 x3 x4 x5 = agg2 x1 (val_main_v34 (F := Ideal) x0 x1 x3 x4 x5) := by
  unfold val_main_v44 val_main_v41 agg2
  rfl

/-- The reference's second layer is the layer map (mean as a quotient) of the second neighbour sums, the first layer's
    result and the counts. -/
theorem layer2 (x0 : (⟨S40000x128, .f32⟩ : BufTy).Contents (Elt Ideal)) (x1 : (⟨S2x640000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v65 (F := Ideal) x0 x1 x3 x4 x5 x6 x7 x8
      = Sage.layerDiv (N := 40000) (K := 256) (J := 256) (val_main_v44 (F := Ideal) x0 x1 x3 x4 x5) (val_main_v34 (F := Ideal) x0 x1 x3 x4 x5)
          (fun i => max (val_main_v17 (F := Ideal) x1 i) 1) x6 x8 x7 := by
  funext i
  obtain ⟨n, j, rfl⟩ : ∃ (n : Fin 40000) (j : Fin 256), i = ix2 n j := ⟨i 0, i 1, eq_ix2 i⟩
  rw [layerDiv_at]
  unfold Sage.normRelu
  simp (config := { implicitDefEqProofs := false }) only [val_main_v65_apply, val_main_v64_apply, val_main_call3_v0_apply, val_main_call3_cst_apply, val_main_v63_apply,
    val_main_v62_apply, val_main_v60_apply, val_main_v61_apply, val_main_cst_11_apply, val_main_call2_v2_apply,
    val_main_call2_v1_apply, val_main_call2_cst_apply, val_main_call2_v0_apply]
  simp (config := { implicitDefEqProofs := false }) only [idx_norm_eq, dense_at, Ideal.hostDivf_def, Ideal.maximumf_def, Ideal.mulf_def, Ideal.hostUnary_sqrt_def,
    Ideal.ofBits_def, Ideal.ofBits_zero_f32, zero_add]

end Cert.ReferenceIdeal.RefLayer2

end
-- ==== Proof.FoldEntry.lean ====
/-
  What each launch finds in its arrays.  Before the first launch the host has formed, from the arguments: the
  neighbour sums of the features along the edges, the features and weights unchanged (a change of float format is the
  identity over the extended reals), the bias as a row, and per node the reciprocal of max(count, 1).  Between the
  launches it forms the neighbour sums of the first launch's result along the same edges, and again the weights, the
  bias row and the graph ids as a column; the reciprocal counts and the first result are still where they were.
-/
import proofs.«414614_j75479755259985_3_alg».proof.Proof.Gen.KernelIdeal.Frame
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«414614_j75479755259985_3_alg».proof.Proof.RefRead
import proofs.«414614_j75479755259985_3_alg».proof.Proof.Args
import proofs.«414614_j75479755259985_3_alg».proof.Proof.RefLayer2

set_option maxRecDepth 16384

noncomputable section

namespace Cert.KernelIdeal.FoldEntry

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg) (c : Dev nD)

open Cert.KernelIdeal.Args

/-! ### Small facts used below -/

/-- Entry by entry, the all-ones array divided by the maximum of `s` and the all-ones array is 1 / max(s, 1). -/
theorem recip_max_at (hb : S_.BroadcastsInDim S40000 (![] : Fin 0 → Fin S40000.rank)) (s : FVec Ideal S40000 .f32)
    (i : S40000.Idx) :
    Host.divf (F := Ideal) (φ := .f32) (broadcastInDim S40000 ![] hb (constant (F := Ideal) S_ .f32 0x3F800000#32))
        (maximumf s (broadcastInDim S40000 ![] hb (constant (F := Ideal) S_ .f32 0x3F800000#32))) i
      = Ideal.div 1 (max (s i) 1) := by
  show Ideal.div (Ideal.ofBits .f32 0x3F800000#32) (max (s i) (Ideal.ofBits .f32 0x3F800000#32)) = _
  rw [Ideal.ofBits_one_f32]

/-- Row `n` of a one-column array and entry `n` of the flat array sit at the same row-major position. -/
theorem pos_col (n : Fin 40000) : (S40000.rowMajor (ix1 n)).val = (S40000x1.rowMajor (ix2 n 0)).val := by
  rw [Shape.rowMajor_val_one, Shape.rowMajor_val_two]
  show n.val = n.val * 1 + 0
  omega

/-! ### At the first launch -/

set_option maxHeartbeats 1000000 in
theorem V1_v33 : V1 m ρ c main_v33 = Cert.ReferenceIdeal.Read.val_main_v13 (F := Ideal) (x0 m c) (x1 m c) := by
  show StableHlo.after hostOps0 (W0 m ρ c) (Proc.devRef .tc main_v33) = _
  after_results_simp
  rfl

theorem V1_v22 : V1 m ρ c main_v22 = x0 m c := by
  show StableHlo.after hostOps0 (W0 m ρ c) (Proc.devRef .tc main_v22) = _
  after_results
  rfl

set_option maxHeartbeats 1000000 in
theorem V1_v12 (n : Fin 40000) :
    V1 m ρ c main_v12 (ix2 n 0) = Ideal.div 1 (max (Cert.ReferenceIdeal.Read.val_main_v17 (F := Ideal) (x1 m c) (ix1 n)) 1) := by
  show StableHlo.after hostOps0 (W0 m ρ c) (Proc.devRef .tc main_v12) (ix2 n 0) = _
  after_results_simp
  refine (shapeCast_apply _ shapeCasts_S40000_S40000x1 (ix2 n 0) (ix1 n) (pos_col n)).trans ?_
  refine (recip_max_at _ _ _).trans ?_
  refine congrArg (fun t : EReal => Ideal.div 1 (max t 1)) ?_
  refine congrFun ?_ (ix1 n)
  rfl

theorem V1_v34 : V1 m ρ c main_v34 = x3 m c := by
  show StableHlo.after hostOps0 (W0 m ρ c) (Proc.devRef .tc main_v34) = _
  after_results
  rfl

theorem V1_v35 : V1 m ρ c main_v35 = x5 m c := by
  show StableHlo.after hostOps0 (W0 m ρ c) (Proc.devRef .tc main_v35) = _
  after_results
  rfl

theorem V1_v36 (j : Fin 256) : V1 m ρ c main_v36 (ix2 0 j) = x4 m c (ix1 j) := by
  show StableHlo.after hostOps0 (W0 m ρ c) (Proc.devRef .tc main_v36) (ix2 0 j) = _
  after_results
  show shapeCast S1x256 (x4 m c) shapeCasts_S256_S1x256 (ix2 0 j) = x4 m c (ix1 j)
  exact shapeCast_a_1a_apply (x4 m c) shapeCasts_S256_S1x256 0 j

/-! ### Across the first launch

The launch's windows are over seven arrays; every other buffer is at its exit what it was at its entry, and an input
window's array is never written back. -/

/-- The sources of the edges, where the second stretch reads them. -/
theorem W2_v1 : W2 m ρ c (Proc.devRef .tc main_v1) = Cert.ReferenceIdeal.Read.val_main_v1 (F := Ideal) (x1 m c) := by
  rw [W2_of_ne m ρ c main_v1 (by decide)]
  show StableHlo.after hostOps0 (W0 m ρ c) (Proc.devRef .tc main_v1) = _
  after_results_simp
  rfl

/-- The targets of the edges, where the second stretch reads them. -/
theorem W2_v3 : W2 m ρ c (Proc.devRef .tc main_v3) = Cert.ReferenceIdeal.Read.val_main_v3 (F := Ideal) (x1 m c) := by
  rw [W2_of_ne m ρ c main_v3 (by decide)]
  show StableHlo.after hostOps0 (W0 m ρ c) (Proc.devRef .tc main_v3) = _
  after_results_simp
  rfl

theorem W2_arg2 : W2 m ρ c (Proc.devRef .tc main_arg2) = x2 m c := by
  rw [W2_of_ne m ρ c main_arg2 (by decide)]
  show StableHlo.after hostOps0 (W0 m ρ c) (Proc.devRef .tc main_arg2) = _
  after_results_simp
  all_goals rfl

theorem W2_arg6 : W2 m ρ c (Proc.devRef .tc main_arg6) = x6 m c := by
  rw [W2_of_ne m ρ c main_arg6 (by decide)]
  show StableHlo.after hostOps0 (W0 m ρ c) (Proc.devRef .tc main_arg6) = _
  after_results_simp
  all_goals rfl

theorem W2_arg7 : W2 m ρ c (Proc.devRef .tc main_arg7) = x7 m c := by
  rw [W2_of_ne m ρ c main_arg7 (by decide)]
  show StableHlo.after hostOps0 (W0 m ρ c) (Proc.devRef .tc main_arg7) = _
  after_results_simp
  all_goals rfl

theorem W2_arg8 : W2 m ρ c (Proc.devRef .tc main_arg8) = x8 m c := by
  rw [W2_of_ne m ρ c main_arg8 (by decide)]
  show StableHlo.after hostOps0 (W0 m ρ c) (Proc.devRef .tc main_arg8) = _
  after_results_simp
  all_goals rfl

/-- The reciprocal counts are the array of an input window of the first launch: as entered. -/
theorem W2_v12 : W2 m ρ c (Proc.devRef .tc main_v12) = V1 m ρ c main_v12 :=
  (W2_arr m ρ c 2).trans (((dat0 (F := Ideal) (V1 m ρ) c).arrAt_in 2 rfl cfg0.N).trans (A_eq0 (V1 m ρ) c 2))

/-! ### At the second launch -/

theorem V3_v37 : V3 m ρ c main_v37 = (dat0 (F := Ideal) (V1 m ρ) c).arrAt 6 cfg0.N := by
  show StableHlo.after hostOps1 (W2 m ρ c) (Proc.devRef .tc main_v37) = _
  after_results
  exact W2_arr m ρ c 6

theorem V3_v48 : V3 m ρ c main_v48 = Cert.ReferenceIdeal.RefLayer2.agg2 (x1 m c) (V3 m ρ c main_v37) := by
  have h37 : V3 m ρ c main_v37 = W2 m ρ c (Proc.devRef .tc main_v37) := by
    show StableHlo.after hostOps1 (W2 m ρ c) (Proc.devRef .tc main_v37) = _
    after_results
    all_goals rfl
  rw [h37]
  show StableHlo.after hostOps1 (W2 m ρ c) (Proc.devRef .tc main_v48) = _
  after_results_simp
  rw [W2_v1 m ρ c, W2_v3 m ρ c]
  generalize W2 m ρ c (Proc.devRef .tc main_v37) = h
  rfl

theorem V3_v12 (n : Fin 40000) :
    V3 m ρ c main_v12 (ix2 n 0) = Ideal.div 1 (max (Cert.ReferenceIdeal.Read.val_main_v17 (F := Ideal) (x1 m c) (ix1 n)) 1) := by
  have h : V3 m ρ c main_v12 = W2 m ρ c (Proc.devRef .tc main_v12) := by
    show StableHlo.after hostOps1 (W2 m ρ c) (Proc.devRef .tc main_v12) = _
    after_results
    all_goals rfl
  have h' : V3 m ρ c main_v12 = V1 m ρ c main_v12 := h.trans (W2_v12 m ρ c)
  rw [h']
  exact V1_v12 m ρ c n

theorem V3_v49 : V3 m ρ c main_v49 = x6 m c := by
  show StableHlo.after hostOps1 (W2 m ρ c) (Proc.devRef .tc main_v49) = _
  after_results
  rw [W2_arg6 m ρ c] <;> rfl

theorem V3_v50 : V3 m ρ c main_v50 = x8 m c := by
  show StableHlo.after hostOps1 (W2 m ρ c) (Proc.devRef .tc main_v50) = _
  after_results
  rw [W2_arg8 m ρ c] <;> rfl

theorem V3_v51 (j : Fin 256) : V3 m ρ c main_v51 (ix2 0 j) = x7 m c (ix1 j) := by
  show StableHlo.after hostOps1 (W2 m ρ c) (Proc.devRef .tc main_v51) (ix2 0 j) = _
  after_results
  show shapeCast S1x256 (W2 m ρ c (Proc.devRef .tc main_arg7)) shapeCasts_S256_S1x256 (ix2 0 j) = x7 m c (ix1 j)
  rw [W2_arg7 m ρ c]
  exact shapeCast_a_1a_apply (x7 m c) shapeCasts_S256_S1x256 0 j

theorem V3_v52 (n : Fin 40000) : V3 m ρ c main_v52 (ix2 n 0) = x2 m c (ix1 n) := by
  show StableHlo.after hostOps1 (W2 m ρ c) (Proc.devRef .tc main_v52) (ix2 n 0) = _
  after_results
  show shapeCast S40000x1 (W2 m ρ c (Proc.devRef .tc main_arg2)) shapeCasts_S40000_S40000x1 (ix2 n 0) = x2 m c (ix1 n)
  rw [W2_arg2 m ρ c]
  exact shapeCast_apply (x2 m c) shapeCasts_S40000_S40000x1 (ix2 n 0) (ix1 n) (pos_col n)

end Cert.KernelIdeal.FoldEntry

end
-- ==== Proof.FoldTail.lean ====
/-
  After the second launch the host adds the twenty tiles' partial sums, multiplies each graph's row by the reciprocal
  of max(its node count, 1), and applies the final linear map.  The second launch's array is what its write-backs
  left; the reciprocal graph counts were formed before the first launch and nothing has written them since.
-/
import proofs.«414614_j75479755259985_3_alg».proof.Proof.Gen.KernelIdeal.Frame
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«414614_j75479755259985_3_alg».proof.Proof.RefRead
import proofs.«414614_j75479755259985_3_alg».proof.Proof.Args

set_option maxRecDepth 16384

noncomputable section

namespace Cert.KernelIdeal.FoldTail

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg) (c : Dev nD)

open Cert.KernelIdeal.Args

/-- No operation of a host stretch writes the given buffer: every operation's result reference differs from it. -/
local macro "not_written" ops:ident : tactic =>
  `(tactic| (
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The last weight matrix is an argument: nothing up to the second launch's end has written it. -/
theorem W4_arg9 : W4 m ρ c (Proc.devRef .tc main_arg9) = x9 m c :=
  calc W4 m ρ c (Proc.devRef .tc main_arg9)
    _ = W5 m ρ c (Proc.devRef .tc main_arg9) :=
        (StableHlo.after_of_forall_not_mem (b := Proc.devRef .tc main_arg9) _ _
          (List.forall_iff_forall_mem.mp (by not_written hostOps2))).symm
    _ = x9 m c := W5_main_arg9 m ρ c

/-- The last bias is an argument: nothing up to the second launch's end has written it. -/
theorem W4_arg10 : W4 m ρ c (Proc.devRef .tc main_arg10) = x10 m c :=
  calc W4 m ρ c (Proc.devRef .tc main_arg10)
    _ = W5 m ρ c (Proc.devRef .tc main_arg10) :=
        (StableHlo.after_of_forall_not_mem (b := Proc.devRef .tc main_arg10) _ _
          (List.forall_iff_forall_mem.mp (by not_written hostOps2))).symm
    _ = x10 m c := W5_main_arg10 m ρ c

/-- The result buffer: the final linear map of (the tiles' sum times the reciprocal graph counts). -/
theorem W5_v60 :
    W5 m ρ c (Proc.devRef .tc main_v60)
      = addf (F := Ideal) (φ := .f32) (Host.dotGeneral (F := Ideal) (φ₁ := .f32) (φ₂ := .f32) dot_S64x256_S256x10_S64x10_1_0_0_1_n_n none
            (mulf (F := Ideal) (φ := .f32) (Host.reduceAdd (F := Ideal) (φ := .f32) (W4 m ρ c (Proc.devRef .tc main_v53)) (constant (F := Ideal) S_ .f32 0x00000000#32) reducesTo_S20x64x256_S64x256_d0 h_S_)
              (broadcastInDim S64x256 ![0, 1] bcast_S64x1_S64x256_0_1 (W4 m ρ c (Proc.devRef .tc main_v21))))
            (x9 m c))
          (broadcastInDim S64x10 ![0, 1] bcast_S1x10_S64x10_0_1 (broadcastInDim S1x10 ![1] bcast_S10_S1x10_1 (x10 m c))) := by
  rw [← W4_arg9 m ρ c, ← W4_arg10 m ρ c]
  show StableHlo.after hostOps2 (W4 m ρ c) (Proc.devRef .tc main_v60) = _
  generalize W4 m ρ c = V
  after_results

/-- The second launch's array after the launch. -/
theorem W4_v53 : W4 m ρ c (Proc.devRef .tc main_v53) = (dat1 (F := Ideal) (V3 m ρ) c).arrAt 7 cfg1.N :=
  W4_arr m ρ c 7

/-- The node count per graph — the scatter-add of 40000 ones by graph id `y` into 64 zeros — is the same expression
    in both programs: the two records, shapes and broadcasts carry the same fields. -/
theorem count_eq (y : (⟨S40000, .i32⟩ : BufTy).Contents (Elt Ideal)) :
    Host.scatterAdd (F := Ideal) (φ := .f32) scatter_S64_S40000x1_S40000_n_0_0_1
        (broadcastInDim S64 ![] bcast_S_S64 (constant (F := Ideal) S_ .f32 0x00000000#32))
        (broadcastInDim S40000x1 ![0] bcast_S40000_S40000x1_0 y)
        (broadcastInDim S40000 ![] bcast_S_S40000 (constant (F := Ideal) S_ .f32 0x3F800000#32))
      = Cert.ReferenceIdeal.Read.val_main_v72 (F := Ideal) y := by
  unfold Cert.ReferenceIdeal.Read.val_main_v72 Cert.ReferenceIdeal.Read.val_main_v70 Cert.ReferenceIdeal.Read.val_main_v71
    Cert.ReferenceIdeal.Read.val_main_v69 Cert.ReferenceIdeal.Read.val_main_cst_13 Cert.ReferenceIdeal.Read.val_main_cst_14
  rfl

/-- A column of reciprocals 1 / max(cnt, 1), formed as a vector and reshaped to 64 × 1, read at row `g`: entry (g, 0)
    of the reshaped column is entry g of the vector. -/
theorem recip_apply (cnt : (⟨S64, .f32⟩ : BufTy).Contents (Elt Ideal)) (g : Fin 64) :
    shapeCast S64x1
        (Host.divf (F := Ideal) (φ := .f32) (broadcastInDim S64 ![] bcast_S_S64 (constant (F := Ideal) S_ .f32 0x3F800000#32))
          (maximumf (F := Ideal) (φ := .f32) cnt
            (broadcastInDim S64 ![] bcast_S_S64 (constant (F := Ideal) S_ .f32 0x3F800000#32))))
        shapeCasts_S64_S64x1 (ix2 g 0)
      = Ideal.div 1 (max (cnt (ix1 g)) 1) := by
  rw [shapeCast_apply _ shapeCasts_S64_S64x1 (ix2 g 0) (ix1 g) (by
    rw [Shape.rowMajor_val_two, Shape.rowMajor_val_one]; show g.val = g.val * 1 + 0; omega)]
  show Ideal.div (Ideal.ofBits .f32 0x3F800000#32) (max (cnt (ix1 g)) (Ideal.ofBits .f32 0x3F800000#32)) = _
  rw [Ideal.ofBits_one_f32]

/-- The column of reciprocals as the host forms it from the graph ids `y`, read at row `g`. -/
theorem recip_counts_apply (y : (⟨S40000, .i32⟩ : BufTy).Contents (Elt Ideal)) (g : Fin 64) :
    shapeCast S64x1
        (Host.divf (F := Ideal) (φ := .f32) (broadcastInDim S64 ![] bcast_S_S64 (constant (F := Ideal) S_ .f32 0x3F800000#32))
          (maximumf (F := Ideal) (φ := .f32)
            (Host.scatterAdd (F := Ideal) (φ := .f32) scatter_S64_S40000x1_S40000_n_0_0_1
              (broadcastInDim S64 ![] bcast_S_S64 (constant (F := Ideal) S_ .f32 0x00000000#32))
              (broadcastInDim S40000x1 ![0] bcast_S40000_S40000x1_0 y)
              (broadcastInDim S40000 ![] bcast_S_S40000 (constant (F := Ideal) S_ .f32 0x3F800000#32)))
            (broadcastInDim S64 ![] bcast_S_S64 (constant (F := Ideal) S_ .f32 0x3F800000#32))))
        shapeCasts_S64_S64x1 (ix2 g 0)
      = Ideal.div 1 (max (Cert.ReferenceIdeal.Read.val_main_v72 (F := Ideal) y (ix1 g)) 1) := by
  rw [count_eq y]
  exact recip_apply _ g

/-- Neither launch and no host operation after the first stretch writes the reciprocal graph counts. -/
theorem W4_v21_eq_W1 : W4 m ρ c (Proc.devRef .tc main_v21) = W1 m ρ c (Proc.devRef .tc main_v21) :=
  calc W4 m ρ c (Proc.devRef .tc main_v21)
    _ = W3 m ρ c (Proc.devRef .tc main_v21) := W4_of_ne m ρ c main_v21 (by decide)
    _ = W2 m ρ c (Proc.devRef .tc main_v21) :=
        StableHlo.after_of_forall_not_mem (b := Proc.devRef .tc main_v21) _ _
          (List.forall_iff_forall_mem.mp (by not_written hostOps1))
    _ = W1 m ρ c (Proc.devRef .tc main_v21) := W2_of_ne m ρ c main_v21 (by decide)

/-- The reciprocal graph counts, still as formed before the first launch. -/
theorem W4_v21 (g : Fin 64) :
    W4 m ρ c (Proc.devRef .tc main_v21) (ix2 g 0) = Ideal.div 1 (max (Cert.ReferenceIdeal.Read.val_main_v72 (F := Ideal) (x2 m c) (ix1 g)) 1) := by
  rw [W4_v21_eq_W1]
  show StableHlo.after hostOps0 (W0 m ρ c) (Proc.devRef .tc main_v21) (ix2 g 0) = _
  have hx : x2 m c = W0 m ρ c (Proc.devRef .tc main_arg2) := rfl
  rw [hx]
  generalize W0 m ρ c = V
  after_results
  generalize V (Proc.devRef .tc main_arg2) = y
  exact recip_counts_apply y g

/-- The tiles' sum times a column, at graph `g` and feature `d`. -/
theorem tiles_sum_apply (part : (⟨S20x64x256, .f32⟩ : BufTy).Contents (Elt Ideal)) (ig : (⟨S64x1, .f32⟩ : BufTy).Contents (Elt Ideal))
    (g : Fin 64) (d : Fin 256) :
    mulf (F := Ideal) (φ := .f32) (Host.reduceAdd (F := Ideal) (φ := .f32) part (constant (F := Ideal) S_ .f32 0x00000000#32) reducesTo_S20x64x256_S64x256_d0 h_S_)
        (broadcastInDim S64x256 ![0, 1] bcast_S64x1_S64x256_0_1 ig) (ix2 g d)
      = (∑ t : Fin 20, part (ix3 t g d)) * ig (ix2 g 0) := by
  rw [mulf_apply]
  -- the broadcast column at (g, d) is the column's entry at (g, 0)
  have hb : broadcastInDim S64x256 ![0, 1] bcast_S64x1_S64x256_0_1 ig (ix2 g d) = ig (ix2 g 0) :=
    broadcastInDim_apply _ bcast_S64x1_S64x256_0_1 ig (ix2 g d) (ix2 g 0) (fun a => match a with
      | ⟨0, _⟩ => by show g.val = if (64 : Nat) = 1 then 0 else g.val; rw [if_neg (by decide)]
      | ⟨1, _⟩ => by show (0 : Fin 1).val = if (1 : Nat) = 1 then 0 else d.val; rw [if_pos rfl]; rfl)
  rw [hb]
  refine congrArg (· * ig (ix2 g 0)) ?_
  -- the sum over the leading axis starts from the zero word, which is the number 0
  simp only [Host.reduceAdd, Ideal.hostReduceAdd_def]
  rw [Ideal.hostReduceAdd_single reducesTo_S20x64x256_S64x256_d0 (by decide)]
  rw [constant_apply, Ideal.ofBits_zero_f32, zero_add]
  refine Finset.sum_congr rfl fun k _ => ?_
  exact congrArg part (funext fun a => Fin.ext (by match a with | ⟨0, _⟩ => rfl | ⟨1, _⟩ => rfl | ⟨2, _⟩ => rfl))

end Cert.KernelIdeal.FoldTail

end
-- ==== Proof.RefLayer1.lean ====
/-
  The reference's first layer, read entry by entry: the neighbour sums divided by max(count, 1), the two matrix
  products as sums over the 128 input features, the bias, the row norm as the square root of the sum of the 256 squares,
  the division by max(norm, floor) and the clip at 0 — the layer map of the specification, the mean as a quotient.
-/
import proofs.«414614_j75479755259985_3_alg».proof.Proof.RefRead
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.ReferenceIdeal.RefLayer1

open Idealize.ShloMosaic Idealize.ShloMosaic.TcCoe Idealize.ShloMosaic.ValueIdx
open Cert.ReferenceIdeal Cert.ReferenceIdeal.Gen Cert.ReferenceIdeal.Read
open scoped BigOperators

/-- The layer map at node `n`, feature `j`: the normalised, clipped dense row of that node. -/
theorem layerDiv_at {N K J : Nat} (a x : (⟨2, ![N, K]⟩ : Shape).Idx → EReal) (c : (⟨1, ![N]⟩ : Shape).Idx → EReal)
    (wl wr : (⟨2, ![K, J]⟩ : Shape).Idx → EReal) (b : (⟨1, ![J]⟩ : Shape).Idx → EReal) (n : Fin N) (j : Fin J) :
    Sage.layerDiv a x c wl wr b (ix2 n j)
      = Sage.normRelu (Sage.dense (fun k : Fin K => Ideal.div (a (ix2 n k)) (c (ix1 n))) (fun k : Fin K => x (ix2 n k))
          (fun (k : Fin K) (j : Fin J) => wl (ix2 k j)) (fun (k : Fin K) (j : Fin J) => wr (ix2 k j)) (fun j : Fin J => b (ix1 j))) j := rfl

/-! Which entries the stages read: the left factor of a product at (n, j) is row n, column k; the right factor is row k,
    column j; a per-node column read at (n, ·) is entry n; the bias row read at (·, j) is entry j. -/

theorem lidx23_eq (n : Fin 40000) (j : Fin 256) (k : Fin 128) : lidx_main_v23 (ix2 n j) k = ix2 n k :=
  funext fun a => Fin.ext (by match a with | ⟨0, _⟩ => rfl | ⟨1, _⟩ => rfl)
theorem ridx23_eq (n : Fin 40000) (j : Fin 256) (k : Fin 128) : ridx_main_v23 (ix2 n j) k = ix2 k j :=
  funext fun a => Fin.ext (by match a with | ⟨0, _⟩ => rfl | ⟨1, _⟩ => rfl)
theorem lidx27_eq (n : Fin 40000) (j : Fin 256) (k : Fin 128) : lidx_main_v27 (ix2 n j) k = ix2 n k :=
  funext fun a => Fin.ext (by match a with | ⟨0, _⟩ => rfl | ⟨1, _⟩ => rfl)
theorem ridx27_eq (n : Fin 40000) (j : Fin 256) (k : Fin 128) : ridx_main_v27 (ix2 n j) k = ix2 k j :=
  funext fun a => Fin.ext (by match a with | ⟨0, _⟩ => rfl | ⟨1, _⟩ => rfl)
theorem idx20_21_eq (n : Fin 40000) (k : Fin 128) : idx_main_v20 (idx_main_v21 (ix2 n k)) = ix1 n :=
  funext fun a => Fin.ext (by match a with | ⟨0, _⟩ => rfl)
theorem idx24_25_eq (n : Fin 40000) (j : Fin 256) : idx_main_v24 (idx_main_v25 (ix2 n j)) = ix1 j :=
  funext fun a => Fin.ext (by match a with | ⟨0, _⟩ => rfl)
theorem idx_norm_eq (n : Fin 40000) (j k : Fin 256) : idx_main_call0_v1 (idx_main_call0_v2 (idx_main_v32 (ix2 n j))) k = ix2 n k :=
  funext fun a => Fin.ext (by match a with | ⟨0, _⟩ => rfl | ⟨1, _⟩ => rfl)

/-- The dense stage of node `n`, feature `j`: the mean's product with the left weights, the bias, the features' product
    with the right weights. -/
theorem dense_at (x0 : (⟨S40000x128, .f32⟩ : BufTy).Contents (Elt Ideal)) (x1 : (⟨S2x640000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (n : Fin 40000) (j : Fin 256) :
    val_main_v28 (F := Ideal) x0 x1 x3 x4 x5 (ix2 n j)
      = Sage.dense (fun k : Fin 128 => Ideal.div (val_main_v13 (F := Ideal) x0 x1 (ix2 n k)) (max (val_main_v17 (F := Ideal) x1 (ix1 n)) 1))
          (fun k : Fin 128 => x0 (ix2 n k)) (fun (k : Fin 128) (j : Fin 256) => x3 (ix2 k j)) (fun (k : Fin 128) (j : Fin 256) => x5 (ix2 k j))
          (fun j : Fin 256 => x4 (ix1 j)) j := by
  unfold Sage.dense
  simp (config := { implicitDefEqProofs := false }) only [val_main_v28_apply, val_main_v26_apply, val_main_v23_apply, val_main_v25_apply, val_main_v24_apply, val_main_v27_apply,
    val_main_v22_apply, val_main_v21_apply, val_main_v20_apply, val_main_v19_apply, val_main_v18_apply, val_main_cst_3_apply]
  simp (config := { implicitDefEqProofs := false }) only [lidx23_eq, ridx23_eq, lidx27_eq, ridx27_eq, idx20_21_eq, idx24_25_eq, Ideal.hostDivf_def, Ideal.maximumf_def,
    Ideal.addf_def, Ideal.ofBits_def, Ideal.ofBits_one_f32]

/-- The reference's first layer is the layer map (mean as a quotient) of the neighbour sums, the features and the counts. -/
theorem layer1 (x0 : (⟨S40000x128, .f32⟩ : BufTy).Contents (Elt Ideal)) (x1 : (⟨S2x640000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) :
    val_main_v34 (F := Ideal) x0 x1 x3 x4 x5
      = Sage.layerDiv (N := 40000) (K := 128) (J := 256) (val_main_v13 (F := Ideal) x0 x1) x0
          (fun i => max (val_main_v17 (F := Ideal) x1 i) 1) x3 x5 x4 := by
  funext i
  obtain ⟨n, j, rfl⟩ : ∃ (n : Fin 40000) (j : Fin 256), i = ix2 n j := ⟨i 0, i 1, eq_ix2 i⟩
  rw [layerDiv_at]
  unfold Sage.normRelu
  simp (config := { implicitDefEqProofs := false }) only [val_main_v34_apply, val_main_v33_apply, val_main_call1_v0_apply, val_main_call1_cst_apply, val_main_v32_apply,
    val_main_v31_apply, val_main_v29_apply, val_main_v30_apply, val_main_cst_4_apply, val_main_call0_v2_apply,
    val_main_call0_v1_apply, val_main_call0_cst_apply, val_main_call0_v0_apply]
  simp (config := { implicitDefEqProofs := false }) only [idx_norm_eq, dense_at, Ideal.hostDivf_def, Ideal.maximumf_def, Ideal.mulf_def, Ideal.hostUnary_sqrt_def,
    Ideal.ofBits_def, Ideal.ofBits_zero_f32, zero_add]

end Cert.ReferenceIdeal.RefLayer1

end
-- ==== Proof.RefPool.lean ====
/-
  The reference's readout, read entry by entry.  Adding every node's row into the row of its graph id leaves, at graph
  g and feature d, the sum of the rows whose id, read as a signed number, is g (an id outside 0 … 63 lands nowhere);
  that is the sum over all rows weighted by the indicator "the id's word is g".  The mean divides by max(count, 1).
-/
import proofs.«414614_j75479755259985_3_alg».proof.Proof.RefRead
import proofs.«414614_j75479755259985_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.ReferenceIdeal.RefPool

open Idealize.ShloMosaic Idealize.ShloMosaic.TcCoe Idealize.ShloMosaic.ValueIdx
open Cert.ReferenceIdeal Cert.ReferenceIdeal.Gen Cert.ReferenceIdeal.Read
open scoped BigOperators

/-- Operand axis 0 is the one the index vector's single component names. -/
theorem mem_sdto0 : (0 : Fin S64x256.rank) ∈ scatter_S64x256_S40000x1_S40000x256_1_0_0_1.scatterDimsToOperandDims :=
  show (0 : Fin 2) ∈ ([0] : List (Fin 2)) from by decide

/-- Operand axis 1 is named by no component of the index vector. -/
theorem not_mem_sdto1 : ¬ (1 : Fin S64x256.rank) ∈ scatter_S64x256_S40000x1_S40000x256_1_0_0_1.scatterDimsToOperandDims :=
  show ¬ (1 : Fin 2) ∈ ([0] : List (Fin 2)) from by decide

/-- Operand axis 0 is the inserted one: no window axis goes to it. -/
theorem not_mem_sKept0 : ¬ (0 : Fin S64x256.rank) ∈ scatter_S64x256_S40000x1_S40000x256_1_0_0_1.sKept :=
  show ¬ (0 : Fin 2) ∈ ((List.finRange 2).filter (· ∉ ([0] : List (Fin 2)))) from by decide

/-- Operand axis 1 is kept: the update's window axis goes to it. -/
theorem mem_sKept1 : (1 : Fin S64x256.rank) ∈ scatter_S64x256_S40000x1_S40000x256_1_0_0_1.sKept :=
  show (1 : Fin 2) ∈ ((List.finRange 2).filter (· ∉ ([0] : List (Fin 2)))) from by decide

/-- On operand axis 0 the window of update row `j 0` starts at that row's id, read signed. -/
theorem start0 {w : Nat} (j : S40000x256.Idx) (idx : IVec S40000x1 w) :
    scatter_S64x256_S40000x1_S40000x256_1_0_0_1.start j idx 0 = (idx (ix2 (j 0) 0)).toInt := by
  unfold ScatterDims.start
  rw [dif_pos mem_sdto0]
  congr 2
  funext b
  apply Fin.ext
  match b with
  | ⟨0, _⟩ => rfl
  | ⟨1, _⟩ => rfl

/-- On operand axis 1 the window starts at 0. -/
theorem start1 {w : Nat} (j : S40000x256.Idx) (idx : IVec S40000x1 w) :
    scatter_S64x256_S40000x1_S40000x256_1_0_0_1.start j idx 1 = 0 := by
  unfold ScatterDims.start
  rw [dif_neg not_mem_sdto1]

/-- The window coordinate on the inserted axis 0 is 0. -/
theorem window0 (j : S40000x256.Idx) :
    scatter_S64x256_S40000x1_S40000x256_1_0_0_1.window j 0 = 0 := by
  unfold ScatterDims.window
  rw [dif_neg not_mem_sKept0]

/-- The window coordinate on axis 1 is the update's feature coordinate. -/
theorem window1 (j : S40000x256.Idx) :
    scatter_S64x256_S40000x1_S40000x256_1_0_0_1.window j 1 = (j 1).val := by
  unfold ScatterDims.window
  rw [dif_pos mem_sKept1]
  rfl

/-- Update entry `j` lands at graph `g`, feature `d` exactly when row `j 0`'s id, read signed, is `g` and the
    entry's feature is `d`: the row is start + window = (id, 0) + (0, feature), and it is kept when inside 64 × 256. -/
theorem resultIdx_iff {w : Nat} (j : S40000x256.Idx) (idx : IVec S40000x1 w) (g : Fin 64) (d : Fin 256) :
    scatter_S64x256_S40000x1_S40000x256_1_0_0_1.resultIdx? j idx = some (ix2 g d)
      ↔ (idx (ix2 (j 0) 0)).toInt = (g.val : Int) ∧ j 1 = d := by
  have hs0 := start0 j idx
  have hs1 := start1 j idx
  have hw0 := window0 j
  have hw1 := window1 j
  have hj1 : (j 1).val < 256 := (j 1).isLt
  have hg : g.val < 64 := g.isLt
  have hd : d.val < 256 := d.isLt
  unfold ScatterDims.resultIdx?
  split
  · rename_i h
    rw [Option.some.injEq]
    constructor
    · intro e
      have e0 : (scatter_S64x256_S40000x1_S40000x256_1_0_0_1.start j idx 0
          + scatter_S64x256_S40000x1_S40000x256_1_0_0_1.window j 0).toNat = g.val :=
        congrArg (fun f : S64x256.Idx => (f 0).val) e
      have e1 : (scatter_S64x256_S40000x1_S40000x256_1_0_0_1.start j idx 1
          + scatter_S64x256_S40000x1_S40000x256_1_0_0_1.window j 1).toNat = d.val :=
        congrArg (fun f : S64x256.Idx => (f 1).val) e
      have h0 := (h 0).1
      rw [hs0, hw0] at e0 h0
      rw [hs1, hw1] at e1
      exact ⟨by omega, Fin.ext (by omega)⟩
    · rintro ⟨e0, e1⟩
      have e1' : (j 1).val = d.val := congrArg Fin.val e1
      funext a
      apply Fin.ext
      match a with
      | ⟨0, _⟩ =>
        show (scatter_S64x256_S40000x1_S40000x256_1_0_0_1.start j idx 0
          + scatter_S64x256_S40000x1_S40000x256_1_0_0_1.window j 0).toNat = g.val
        rw [hs0, hw0]; omega
      | ⟨1, _⟩ =>
        show (scatter_S64x256_S40000x1_S40000x256_1_0_0_1.start j idx 1
          + scatter_S64x256_S40000x1_S40000x256_1_0_0_1.window j 1).toNat = d.val
        rw [hs1, hw1]; omega
  · rename_i h
    constructor
    · intro e; exact absurd e (by simp)
    · rintro ⟨e0, e1⟩
      exfalso
      apply h
      intro a
      match a with
      | ⟨0, _⟩ =>
        show 0 ≤ scatter_S64x256_S40000x1_S40000x256_1_0_0_1.start j idx 0
            + scatter_S64x256_S40000x1_S40000x256_1_0_0_1.window j 0
          ∧ scatter_S64x256_S40000x1_S40000x256_1_0_0_1.start j idx 0
            + scatter_S64x256_S40000x1_S40000x256_1_0_0_1.window j 0 < ((64 : Nat) : Int)
        rw [hs0, hw0]; omega
      | ⟨1, _⟩ =>
        show 0 ≤ scatter_S64x256_S40000x1_S40000x256_1_0_0_1.start j idx 1
            + scatter_S64x256_S40000x1_S40000x256_1_0_0_1.window j 1
          ∧ scatter_S64x256_S40000x1_S40000x256_1_0_0_1.start j idx 1
            + scatter_S64x256_S40000x1_S40000x256_1_0_0_1.window j 1 < ((256 : Nat) : Int)
        rw [hs1, hw1]; omega

/-- A 32-bit word reads, signed, as a graph number below 64 exactly when it is that number's word. -/
theorem toInt_eq_iff (w : BitVec 32) (g : Fin 64) : w.toInt = (g.val : Int) ↔ w = BitVec.ofNat 32 g.val := by
  have hg : g.val < 64 := g.isLt
  have e : (BitVec.ofNat 32 g.val).toInt = (g.val : Int) := by
    rw [BitVec.toInt_eq_toNat_cond, BitVec.toNat_ofNat]
    have hm : g.val % 2 ^ 32 = g.val := Nat.mod_eq_of_lt (by omega)
    rw [hm, if_pos (by omega)]
  rw [← e]
  exact BitVec.toInt_inj

/-- The updates that land at graph `g`, feature `d` are the entries (n, d) of the rows n whose id is `g`: their sum is
    the sum over all rows weighted by the indicator. -/
theorem scatter_rows (h : S40000x256.Idx → EReal) (idx : IVec S40000x1 32) (bt : Fin 40000 → BitVec 32)
    (hbt : ∀ n : Fin 40000, idx (ix2 n 0) = bt n) (g : Fin 64) (d : Fin 256) :
    ∑ j ∈ Finset.univ.filter (fun j : S40000x256.Idx =>
        scatter_S64x256_S40000x1_S40000x256_1_0_0_1.resultIdx? j idx = some (ix2 g d)), h j
      = Sage.poolAll bt h g d := by
  rw [Sage.poolAll_eq_filter]
  refine Finset.sum_nbij' (fun j : S40000x256.Idx => (j 0 : Fin 40000)) (fun n : Fin 40000 => ix2 n d) ?_ ?_ ?_ ?_ ?_
  · intro j hj
    have hj' := (resultIdx_iff j idx g d).1 (Finset.mem_filter.1 hj).2
    refine Finset.mem_filter.2 ⟨Finset.mem_univ _, ?_⟩
    exact (hbt (j 0)).symm.trans ((toInt_eq_iff _ g).1 hj'.1)
  · intro n hn
    have hn' : bt n = BitVec.ofNat 32 g.val := (Finset.mem_filter.1 hn).2
    refine Finset.mem_filter.2 ⟨Finset.mem_univ _, (resultIdx_iff (ix2 n d) idx g d).2 ⟨?_, rfl⟩⟩
    show (idx (ix2 n 0)).toInt = (g.val : Int)
    rw [hbt, hn']
    exact (toInt_eq_iff _ g).2 rfl
  · intro j hj
    have hj' := (resultIdx_iff j idx g d).1 (Finset.mem_filter.1 hj).2
    show ix2 (j 0) d = j
    rw [← hj'.2]
    exact (eq_ix2 j).symm
  · intro n hn
    rfl
  · intro j hj
    have hj' := (resultIdx_iff j idx g d).1 (Finset.mem_filter.1 hj).2
    show h j = h (ix2 (j 0) d)
    rw [← hj'.2]
    exact congrArg h (eq_ix2 j)

/-- The pooled mean at graph `g`, feature `d`: the indicator-weighted sum of the second layer's rows over max(count, 1). -/
theorem pool (x0 : (⟨S40000x128, .f32⟩ : BufTy).Contents (Elt Ideal)) (x1 : (⟨S2x640000, .i32⟩ : BufTy).Contents (Elt Ideal)) (x2 : (⟨S40000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (g : Fin 64) (d : Fin 256) :
    val_main_v77 (F := Ideal) x0 x1 x2 x3 x4 x5 x6 x7 x8 (ix2 g d)
      = Ideal.div (Sage.poolAll (fun n => x2 (ix1 n)) (val_main_v65 (F := Ideal) x0 x1 x3 x4 x5 x6 x7 x8) g d)
          (max (val_main_v72 (F := Ideal) x2 (ix1 g)) 1) := by
  have hnum : val_main_v68 (F := Ideal) x0 x1 x2 x3 x4 x5 x6 x7 x8 (ix2 g d)
      = Sage.poolAll (fun n => x2 (ix1 n)) (val_main_v65 (F := Ideal) x0 x1 x3 x4 x5 x6 x7 x8) g d := by
    unfold val_main_v68
    generalize val_main_v65 (F := Ideal) x0 x1 x3 x4 x5 x6 x7 x8 = h
    simp only [Host.scatterAdd]
    rw [Ideal.hostScatterAdd_def]
    unfold Ideal.hostScatterAdd
    rw [val_main_v66_apply, val_main_cst_12_apply, Ideal.ofBits_def, Ideal.ofBits_zero_f32, zero_add]
    refine scatter_rows h (val_main_v67 (F := Ideal) x2) (fun n => x2 (ix1 n)) (fun n => ?_) g d
    rw [val_main_v67_apply]
    exact congrArg x2 (funext fun a => Fin.ext (by match a with | ⟨0, _⟩ => rfl))
  have hden : val_main_v76 (F := Ideal) x2 (ix2 g d) = max (val_main_v72 (F := Ideal) x2 (ix1 g)) 1 := by
    rw [val_main_v76_apply, val_main_v75_apply, val_main_v74_apply, Ideal.maximumf_def, val_main_v73_apply,
      val_main_cst_15_apply, Ideal.ofBits_def, Ideal.ofBits_one_f32]
    have e : idx_main_v75 (idx_main_v76 (ix2 g d)) = ix1 g :=
      funext fun a => Fin.ext (by match a with | ⟨0, _⟩ => rfl)
    rw [e]
  rw [val_main_v77_apply, Ideal.hostDivf_def, hnum, hden]

/-- The result is the final linear map of the pooled means. -/
theorem final (x0 : (⟨S40000x128, .f32⟩ : BufTy).Contents (Elt Ideal)) (x1 : (⟨S2x640000, .i32⟩ : BufTy).Contents (Elt Ideal)) (x2 : (⟨S40000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x10, .f32⟩ : BufTy).Contents (Elt Ideal)) (x10 : (⟨S10, .f32⟩ : BufTy).Contents (Elt Ideal)) :
    val_main_v81 (F := Ideal) x0 x1 x2 x3 x4 x5 x6 x7 x8 x9 x10
      = addf (F := Ideal) (φ := .f32) (Host.dotGeneral (F := Ideal) (φ₁ := .f32) (φ₂ := .f32) dot_S64x256_S256x10_S64x10_1_0_0_1_n_n none (val_main_v77 (F := Ideal) x0 x1 x2 x3 x4 x5 x6 x7 x8) x9)
          (broadcastInDim S64x10 ![0, 1] bcast_S1x10_S64x10_0_1 (broadcastInDim S1x10 ![1] bcast_S10_S1x10_1 x10)) := by
  unfold val_main_v81 val_main_v80 val_main_v79 val_main_v78
  rfl

end Cert.ReferenceIdeal.RefPool

end
-- ==== Proof.Bridge.lean ====
/-
  The kernel program's result is the reference's function of the arguments.

  Layer by layer.  The first launch leaves the layer map of what the host formed, the mean as a product with the
  reciprocal of max(count, 1); the reference's first layer is the same map with the mean as a quotient; a divisor that is
  not 0 makes the two means equal, so the arrays are equal.  The second launch reads the neighbour sums of that array
  along the same edges, so its rows are the reference's second layer by the same step.  The tiles' partial sums add up
  to the indicator-weighted sum over all 40000 rows, which is what adding each row into its graph's row leaves; the
  product with the reciprocal of max(graph count, 1) is the quotient.  The final linear map is the same on both sides.
-/
import proofs.«414614_j75479755259985_3_alg».proof.Proof.KRun
import proofs.«414614_j75479755259985_3_alg».proof.Proof.Region0
import proofs.«414614_j75479755259985_3_alg».proof.Proof.Region1
import proofs.«414614_j75479755259985_3_alg».proof.Proof.FoldEntry
import proofs.«414614_j75479755259985_3_alg».proof.Proof.FoldTail
import proofs.«414614_j75479755259985_3_alg».proof.Proof.RefLayer1
import proofs.«414614_j75479755259985_3_alg».proof.Proof.RefLayer2
import proofs.«414614_j75479755259985_3_alg».proof.Proof.RefPool
import proofs.«414614_j75479755259985_3_alg».proof.Proof.Args
import Idealize.ShloMosaic.Lib.ValueIdx
import Idealize.ShloMosaic.PureOps.Ideal.Laws

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Args
open scoped BigOperators

variable (m : (ℓ : Loc nD τ sig) → Buf (Elt Ideal) ℓ) (ρ : Dev nD → PrngReg) (c : Dev nD)

/-- The first launch's array is the reference's first layer: the same layer map, the mean once as a product with
    the reciprocal of max(count, 1) and once as the quotient. -/
theorem layer1 :
    (dat0 (F := Ideal) (V1 m ρ) c).arrAt 6 cfg0.N = Cert.ReferenceIdeal.Read.val_main_v34 (F := Ideal) (x0 m c) (x1 m c) (x3 m c) (x4 m c) (x5 m c) := by
  rw [Cert.KernelIdeal.Region0.value (V1 m ρ) c, FoldEntry.V1_v33, FoldEntry.V1_v22, FoldEntry.V1_v34, FoldEntry.V1_v35,
    Cert.ReferenceIdeal.RefLayer1.layer1]
  exact Sage.layerMul_eq_layerDiv _ _ _ (Cert.ReferenceIdeal.Read.val_main_v17 (F := Ideal) (x1 m c)) _ _ _ _
    (fun n => FoldEntry.V1_v12 m ρ c n) (fun j => FoldEntry.V1_v36 m ρ c j)

/-- The rows the second launch forms are the reference's second layer: its neighbour sums are taken of the same
    array along the same edges, and the layer map agrees as in the first layer. -/
theorem layer2 :
    Sage.layerMul (N := 40000) (K := 256) (J := 256) (V3 m ρ c main_v48) (V3 m ρ c main_v37) (V3 m ρ c main_v12)
        (V3 m ρ c main_v49) (V3 m ρ c main_v50) (V3 m ρ c main_v51)
      = Cert.ReferenceIdeal.Read.val_main_v65 (F := Ideal) (x0 m c) (x1 m c) (x3 m c) (x4 m c) (x5 m c) (x6 m c) (x7 m c) (x8 m c) := by
  have h37 : V3 m ρ c main_v37 = Cert.ReferenceIdeal.Read.val_main_v34 (F := Ideal) (x0 m c) (x1 m c) (x3 m c) (x4 m c) (x5 m c) :=
    (FoldEntry.V3_v37 m ρ c).trans (layer1 m ρ c)
  rw [FoldEntry.V3_v48, h37, FoldEntry.V3_v49, FoldEntry.V3_v50, ← Cert.ReferenceIdeal.RefLayer2.val_main_v44_eq_agg2,
    Cert.ReferenceIdeal.RefLayer2.layer2]
  exact Sage.layerMul_eq_layerDiv _ _ _ (Cert.ReferenceIdeal.Read.val_main_v17 (F := Ideal) (x1 m c)) _ _ _ _
    (fun n => FoldEntry.V3_v12 m ρ c n) (fun j => FoldEntry.V3_v51 m ρ c j)

/-- The tiles' sum times the reciprocal of max(graph count, 1) is the reference's pooled mean: the twenty tiles'
    shares add up to the indicator-weighted sum over all rows, and the product with the reciprocal is the quotient. -/
theorem pooled :
    mulf (F := Ideal) (φ := .f32) (Host.reduceAdd (F := Ideal) (φ := .f32) (W4 m ρ c (Proc.devRef .tc main_v53)) (constant (F := Ideal) S_ .f32 0x00000000#32) reducesTo_S20x64x256_S64x256_d0 h_S_)
        (broadcastInDim S64x256 ![0, 1] bcast_S64x1_S64x256_0_1 (W4 m ρ c (Proc.devRef .tc main_v21)))
      = Cert.ReferenceIdeal.Read.val_main_v77 (F := Ideal) (x0 m c) (x1 m c) (x2 m c) (x3 m c) (x4 m c) (x5 m c) (x6 m c) (x7 m c) (x8 m c) := by
  funext i
  obtain ⟨g, d, rfl⟩ : ∃ (g : Fin 64) (d : Fin 256), i = ix2 g d := ⟨i 0, i 1, eq_ix2 i⟩
  rw [FoldTail.tiles_sum_apply, FoldTail.W4_v21, Cert.ReferenceIdeal.RefPool.pool, FoldTail.W4_v53, Cert.KernelIdeal.Region1.value (V3 m ρ) c,
    Sage.sum_poolPartial, layer2 m ρ c, Sage.mul_recip_eq_div _ _ (Sage.max_one_ne_zero _)]
  congr 2
  funext n
  exact FoldEntry.V3_v52 m ρ c n

/-- What the last stretch of host operations leaves in the result buffer is the reference's result term of the
    arguments as launched. -/
theorem result_eq :
    W5 m ρ c (Proc.devRef .tc main_v60)
      = Cert.ReferenceIdeal.Read.val_main_v81 (F := Ideal) (x0 m c) (x1 m c) (x2 m c) (x3 m c) (x4 m c) (x5 m c) (x6 m c) (x7 m c) (x8 m c) (x9 m c) (x10 m c) := by
  rw [FoldTail.W5_v60, Cert.ReferenceIdeal.RefPool.final, pooled m ρ c]
  rfl

end Cert.KernelIdeal.Bridge

end
-- ==== Proof.lean ====
/-
  Two graph-convolution layers, a mean readout per graph and a linear map, on 40000 nodes and 640000 edges: one program
  runs the dense part of each layer as a tiled launch (and the readout as per-tile partial sums inside the second
  launch), the other is the plain array program.  Over the extended reals they compute the same function.

  The three runs: each tiled program terminates without a fault and leaves its arguments alone (the launches read the
  arguments through windows and write only their own result arrays); the plain program is a straight line of array
  operations.  The idealised tiled program is the tiled program's own text read over the extended reals, nothing
  rewritten.  The equality of results is `Bridge.result_eq`: the tiled program's result buffer holds the plain
  program's result term of the same arguments.
-/
import proofs.«414614_j75479755259985_3_alg».proof.Defs
import proofs.«414614_j75479755259985_3_alg».proof.Proof.Gen.Kernel
import proofs.«414614_j75479755259985_3_alg».proof.Proof.Gen.Kernel.Frame
import proofs.«414614_j75479755259985_3_alg».proof.Proof.Gen.KernelIdeal
import proofs.«414614_j75479755259985_3_alg».proof.Proof.Gen.KernelIdeal.Frame
import proofs.«414614_j75479755259985_3_alg».proof.Proof.Gen.ReferenceIdeal
import proofs.«414614_j75479755259985_3_alg».proof.Proof.Gen.ReferenceIdeal.Run
import proofs.«414614_j75479755259985_3_alg».proof.Proof.Gen.ReferenceIdeal.Read
import proofs.«414614_j75479755259985_3_alg».proof.Proof.Gen.Pre_finite_inputs
import proofs.«414614_j75479755259985_3_alg».proof.Proof.KRun
import proofs.«414614_j75479755259985_3_alg».proof.Proof.Bridge
import Idealize.ShloMosaic.Adequacy
import Idealize.ShloMosaic.Init

noncomputable section

namespace Cert.Proof

open Idealize.ShloMosaic Idealize.ShloMosaic.TcCoe Idealize.SL.Sem

/-- Both idealised programs run, and from memories that agree on the arguments they end with the same result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W5 m ρ c (Proc.devRef .tc Cert.KernelIdeal.main_v60),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
